-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S32x512x1 : Shape := ⟨3, ![32, 512, 1]⟩
abbrev S16x512x1024 : Shape := ⟨3, ![16, 512, 1024]⟩
abbrev S16x1024 : Shape := ⟨2, ![16, 1024]⟩
abbrev S1x1024 : Shape := ⟨2, ![1, 1024]⟩
abbrev S32 : Shape := ⟨1, ![32]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S32x512x1 : S_.BroadcastsInDim S32x512x1 (![] : Fin 0 → Fin S32x512x1.rank)
  reducesTo_S32x512x1_S_d0_1_2 : S32x512x1.ReducesTo [0, 1, 2] S_
  bcast_S_S16x512x1024 : S_.BroadcastsInDim S16x512x1024 (![] : Fin 0 → Fin S16x512x1024.rank)
  reducesTo_S16x512x1024_S_d0_1_2 : S16x512x1024.ReducesTo [0, 1, 2] S_
  bcast_S_S16x1024 : S_.BroadcastsInDim S16x1024 (![] : Fin 0 → Fin S16x1024.rank)
  reducesTo_S16x1024_S_d0_1 : S16x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_v28 : IVec S_ 1) (main_v33 : IVec S32 1) : IVec S_ 1 :=
  let main_c_12 : IVec S_ 1 := constantI S_ 1 1#1
  let main_v34 : IVec S_ 1 := (fun x v => Host.reduce IntOp.andi x v reducesTo_S32_S_d0 h_S_) main_v33 main_c_12
  let main_v35 : IVec S_ 1 := andi main_v28 main_v34
  main_v35

def fn_part1 {F : FTy → Type} [FloatOps F] (main_arg4 : FVec F S16x1024 .f32) (main_arg5 : FVec F S1x1024 .f32) (main_arg6 : IVec S32 32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S16x1024 .f32 := Host.absf main_arg4
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_c_10 : IVec S_ 32 := constantI S_ 32 0#32
  let main_v29 : IVec S32 32 := broadcastInDim S32 ![] bcast_S_S32 main_c_10
  let main_v30 : IVec S32 1 := cmpi .sge main_arg6 main_v29
  let main_c_11 : IVec S_ 32 := constantI S_ 32 16#32
  let main_v31 : IVec S32 32 := broadcastInDim S32 ![] bcast_S_S32 main_c_11
  let main_v32 : IVec S32 1 := cmpi .slt main_arg6 main_v31
  let main_v33 : IVec S32 1 := andi main_v30 main_v32
  fn_part2 (F := F) main_v28 main_v33

def fn {F : FTy → Type} [FloatOps F] (main_arg0 : FVec F S32x512x512 .f32) (main_arg1 : FVec F S32x512x1 .f32) (main_arg2 : FVec F S16x512x1024 .f32) (main_arg3 : FVec F S16x1024 .f32) (main_arg4 : FVec F S16x1024 .f32) (main_arg5 : FVec F S1x1024 .f32) (main_arg6 : IVec S32 32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S32x512x1 .f32 := Host.absf main_arg1
  let main_cst_0 : FVec F S_ .f32 := constant S_ .f32 0x7F800000#32
  let main_v5 : FVec F S32x512x1 .f32 := broadcastInDim S32x512x1 ![] bcast_S_S32x512x1 main_cst_0
  let main_v6 : IVec S32x512x1 1 := cmpf .olt main_v4 main_v5
  let main_c_1 : IVec S_ 1 := constantI S_ 1 1#1
  let main_v7 : IVec S_ 1 := (fun x v => Host.reduce IntOp.andi x v reducesTo_S32x512x1_S_d0_1_2 h_S_) main_v6 main_c_1
  let main_v8 : IVec S_ 1 := andi main_v3 main_v7
  let main_v9 : FVec F S16x512x1024 .f32 := Host.absf main_arg2
  let main_cst_2 : FVec F S_ .f32 := constant S_ .f32 0x7F800000#32
  let main_v10 : FVec F S16x512x1024 .f32 := broadcastInDim S16x512x1024 ![] bcast_S_S16x512x1024 main_cst_2
  let main_v11 : IVec S16x512x1024 1 := cmpf .olt main_v9 main_v10
  let main_c_3 : IVec S_ 1 := constantI S_ 1 1#1
  let main_v12 : IVec S_ 1 := (fun x v => Host.reduce IntOp.andi x v reducesTo_S16x512x1024_S_d0_1_2 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_v13 main_v16
-- ==== Kernel.lean ====
abbrev S32x512x512 : Shape := ⟨3, ![32, 512, 512]⟩
abbrev S32x512x1 : Shape := ⟨3, ![32, 512, 1]⟩
abbrev S16x512x1024 : Shape := ⟨3, ![16, 512, 1024]⟩
abbrev S16x1024 : Shape := ⟨2, ![16, 1024]⟩
abbrev S1x1024 : Shape := ⟨2, ![1, 1024]⟩
abbrev S32 : Shape := ⟨1, ![32]⟩
abbrev S16x1x1024 : Shape := ⟨3, ![16, 1, 1024]⟩
abbrev S32x512x1024 : Shape := ⟨3, ![32, 512, 1024]⟩
abbrev S1x512x512 : Shape := ⟨3, ![1, 512, 512]⟩
abbrev S1x512x1024 : Shape := ⟨3, ![1, 512, 1024]⟩
abbrev S1 : Shape := ⟨1, ![1]⟩
abbrev S1x1x1024 : Shape := ⟨3, ![1, 1, 1024]⟩
abbrev S1x512x1 : Shape := ⟨3, ![1, 512, 1]⟩
abbrev S512x512 : Shape := ⟨2, ![512, 512]⟩
abbrev S512x1024 : Shape := ⟨2, ![512, 1024]⟩
abbrev S1024 : Shape := ⟨1, ![1024]⟩
abbrev S512x1 : Shape := ⟨2, ![512, 1]⟩
abbrev S_ : Shape := ⟨0, ![]⟩
abbrev S32x1 : Shape := ⟨2, ![32, 1]⟩
abbrev S32x1024 : Shape := ⟨2, ![32, 1024]⟩
abbrev S32x1x1024 : Shape := ⟨3, ![32, 1, 1024]⟩
abbrev S32x513x1024 : Shape := ⟨3, ![32, 513, 1024]⟩

abbrev nBuf : Space → Nat
  | .hbm => 19
  | .vmem => 11
  | .smem => 1
  | _ => 0

abbrev bufTy : (tb : Table) → Fin (tcTables nBuf tb) → BufTy
  | .hbm, ⟨0, _⟩ => ⟨S32x512x512, .f32⟩
  | .hbm, ⟨1, _⟩ => ⟨S32x512x1, .f32⟩
  | .hbm, ⟨2, _⟩ => ⟨S16x512x1024, .f32⟩
  | .hbm, ⟨3, _⟩ => ⟨S16x1024, .f32⟩
  | .hbm, ⟨4, _⟩ => ⟨S16x1024, .f32⟩
  | .hbm, ⟨5, _⟩ => ⟨S1x1024, .f32⟩
  | .hbm, ⟨6, _⟩ => ⟨S16x1x1024, .f32⟩
  | .hbm, ⟨7, _⟩ => ⟨S32x512x1024, .f32⟩
  | .hbm, ⟨8, _⟩ => ⟨S_, .i32⟩
  | .hbm, ⟨9, _⟩ => ⟨S32, .i32⟩
  | .hbm, ⟨10, _⟩ => ⟨S32, .i1⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S32x1, .i32⟩
  | .hbm, ⟨16, _⟩ => ⟨S32x1024, .f32⟩
  | .hbm, ⟨17, _⟩ => ⟨S32x1x1024, .f32⟩
  | .hbm, ⟨18, _⟩ => ⟨S32x513x1024, .f32⟩
  | .local _ .vmem, ⟨0, _⟩ => ⟨S1x512x512, .f32⟩
  | .local _ .vmem, ⟨1, _⟩ => ⟨S1x512x512, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1, .f32⟩
  | .local _ .vmem, ⟨7, _⟩ => ⟨S1x512x1, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .smem, ⟨0, _⟩ => ⟨S32, .i32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S16x1024_S16x1x1024_0_2 : S16x1024.BroadcastsInDim S16x1x1024 (![0, 2] : Fin 2 → Fin S16x1x1024.rank)
  numel1_S1 : S1.numel = 1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1024_S1x1024_0_0 : ∀ a, (![0, 0] : Fin 2 → Nat) a + S1x1024.size a ≤ S1x1024.size a
  h_S1x1024 : 0 < S1x1024.numel
  shapeCasts_S1024_S1x1024 : S1024.ShapeCasts S1x1024
  broadcasts_S1x1024_S512x1024 : S1x1024.Broadcasts S512x1024
  broadcasts_S512x1_S512x1024 : S512x1.Broadcasts S512x1024
  shapeCasts_S512x1024_S1x512x1024 : S512x1024.ShapeCasts S1x512x1024
  bcast_S_S32 : S_.BroadcastsInDim S32 (![] : Fin 0 → Fin S32.rank)
  bcast_S32_S32x1_0 : S32.BroadcastsInDim S32x1 (![0] : Fin 1 → Fin S32x1.rank)
  bcast_S32x1024_S32x1x1024_0_2 : S32x1024.BroadcastsInDim S32x1x1024 (![0, 2] : Fin 2 → Fin S32x1x1024.rank)
  concatenates_S32x1x1024_S32x512x1024_S32x513x1024_d1 : Shape.Concatenates [S32x1x1024, S32x512x1024] S32x513x1024 1
  dot_S512x512_S512x1024_S512x1024_1_0_0_1_n_n_wf : DotDims.WF S512x512 S512x1024 S512x1024 [1] [0] [0] [1] [] []
  gather_S16x1024_S32x1_S32x1024_1_0_n_n_0_1_11024_wf : GatherDims.WF S16x1024 S32x1 S32x1024 [1] [0] [] [0] [] 1 ![1, 1024]
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S32x512x1.size a
  hwx0_3 : ∀ i : grid0.Coords, EltTy.bits .f32 = 32 ∨ (Rect.block (s := S32x512x1) S1x512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S32x512x1024.size a
  hwx0_5 : ∀ i : grid0.Coords, EltTy.bits .f32 = 32 ∨ (Rect.block (s := S32x512x1024) S1x512x1024.size (cc0_transform_5 i) (hinb0_5 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def gather_S16x1024_S32x1_S32x1024_1_0_n_n_0_1_11024 : GatherDims S16x1024 S32x1 S32x1024 where
  offsetDims := [1]
  collapsedSliceDims := [0]
  operandBatchingDims := []
  startIndicesBatchingDims := []
  startIndexMap := [0]
  indexVectorDim := 1
  sliceSizes := ![1, 1024]
  wf := gather_S16x1024_S32x1_S32x1024_1_0_n_n_0_1_11024_wf

abbrev spec0_0 : Pipeline.WinSpec sig grid0.rank :=
  Pipeline.WinSpec.ofSpec (Memref.whole main_arg0) S1x512x512.size reads0_0 false false 2 stage0_0 sem0_0 nbuf0_0 hstage0_0

abbrev spec0_1 : Pipeline.WinSpec sig grid0.rank :=
  Pipeline.WinSpec.ofSpec (Memref.whole main_arg2) S1x512x1024.size reads0_1 false false 2 stage0_1 sem0_1 nbuf0_1 hstage0_1

abbrev spec0_2 : Pipeline.WinSpec sig grid0.rank :=
  Pipeline.WinSpec.ofSpec (Memref.whole main_v0) S1x1x1024.size reads0_2 false false 2 stage0_2 sem0_2 nbuf0_2 hstage0_2

abbrev spec0_3 : Pipeline.WinSpec sig grid0.rank :=
  Pipeline.WinSpec.ofSpec (Memref.whole main_arg1) S1x512x1.size reads0_3 false false 2 stage0_3 sem0_3 nbuf0_3 hstage0_3

abbrev spec0_4 : Pipeline.WinSpec sig grid0.rank :=
  Pipeline.WinSpec.ofSpec (Memref.whole main_arg5) S1x1024.size reads0_4 false true 1 stage0_4 sem0_4 nbuf0_4 hstage0_4

abbrev spec0_5 : Pipeline.WinSpec sig grid0.rank :=
  Pipeline.WinSpec.ofSpec (Memref.whole main_v1) S1x512x1024.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 k0_off1_inb numel1_S1 pf | 2 => cc0_transform_2 k0_off1_inb numel1_S1 pf | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | 4 => hreads0_4 | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x512x1024.size a ≤ S16x512x1024.size a), EltTy.bits .f32 = 32 ∨ (Rect.block (s := S16x512x1024) S1x512x1024.size (cc0_transform_1 k0_off1_inb numel1_S1 pf i) h).WholeWords (EltTy.packing .f32)) ∧
  (∀ i : grid0.Coords, ∃ h : (∀ a, (cc0_transform_2 k0_off1_inb numel1_S1 pf i a + 1) * S1x1x1024.size a ≤ S16x1x1024.size a), EltTy.bits .f32 = 32 ∨ (Rect.block (s := S16x1x1024) S1x1x1024.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S32x512x512 : Shape := ⟨3, ![32, 512, 512]⟩
abbrev S32x512x1 : Shape := ⟨3, ![32, 512, 1]⟩
abbrev S16x512x1024 : Shape := ⟨3, ![16, 512, 1024]⟩
abbrev S16x1024 : Shape := ⟨2, ![16, 1024]⟩
abbrev S1x1024 : Shape := ⟨2, ![1, 1024]⟩
abbrev S32 : Shape := ⟨1, ![32]⟩
abbrev S_ : Shape := ⟨0, ![]⟩
abbrev S32x1 : Shape := ⟨2, ![32, 1]⟩
abbrev S32x512x1024 : Shape := ⟨3, ![32, 512, 1024]⟩
abbrev S32x1024 : Shape := ⟨2, ![32, 1024]⟩
abbrev S32x1x1024 : Shape := ⟨3, ![32, 1, 1024]⟩
abbrev S1x1x1024 : Shape := ⟨3, ![1, 1, 1024]⟩
abbrev S32x513x1024 : Shape := ⟨3, ![32, 513, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x512x1, .f32⟩
  | .hbm, ⟨2, _⟩ => ⟨S16x512x1024, .f32⟩
  | .hbm, ⟨3, _⟩ => ⟨S16x1024, .f32⟩
  | .hbm, ⟨4, _⟩ => ⟨S16x1024, .f32⟩
  | .hbm, ⟨5, _⟩ => ⟨S1x1024, .f32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i1⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S32x512x1024, .f32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S32x1024, .f32⟩
  | .hbm, ⟨25, _⟩ => ⟨S32x512x1024, .f32⟩
  | .hbm, ⟨26, _⟩ => ⟨S32x1x1024, .f32⟩
  | .hbm, ⟨27, _⟩ => ⟨S32x512x1024, .f32⟩
  | .hbm, ⟨28, _⟩ => ⟨S32x512x1024, .f32⟩
  | .hbm, ⟨29, _⟩ => ⟨S_, .f32⟩
  | .hbm, ⟨30, _⟩ => ⟨S32x512x1, .f32⟩
  | .hbm, ⟨31, _⟩ => ⟨S32x512x1, .f32⟩
  | .hbm, ⟨32, _⟩ => ⟨S32x512x1024, .f32⟩
  | .hbm, ⟨33, _⟩ => ⟨S32x512x1024, .f32⟩
  | .hbm, ⟨34, _⟩ => ⟨S1x1x1024, .f32⟩
  | .hbm, ⟨35, _⟩ => ⟨S32x512x1024, .f32⟩
  | .hbm, ⟨36, _⟩ => ⟨S32x512x1024, .f32⟩
  | .hbm, ⟨37, _⟩ => ⟨S32x512x1024, .f32⟩
  | .hbm, ⟨38, _⟩ => ⟨S32x512x1024, .f32⟩
  | .hbm, ⟨39, _⟩ => ⟨S_, .i32⟩
  | .hbm, ⟨40, _⟩ => ⟨S32, .i32⟩
  | .hbm, ⟨41, _⟩ => ⟨S32, .i1⟩
  | .hbm, ⟨42, _⟩ => ⟨S_, .i32⟩
  | .hbm, ⟨43, _⟩ => ⟨S32, .i32⟩
  | .hbm, ⟨44, _⟩ => ⟨S32, .i32⟩
  | .hbm, ⟨45, _⟩ => ⟨S32, .i32⟩
  | .hbm, ⟨46, _⟩ => ⟨S32x1, .i32⟩
  | .hbm, ⟨47, _⟩ => ⟨S32x1024, .f32⟩
  | .hbm, ⟨48, _⟩ => ⟨S32x1x1024, .f32⟩
  | .hbm, ⟨49, _⟩ => ⟨S32x513x1024, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S32x1024_S32x1x1024_0_2 : S32x1024.BroadcastsInDim S32x1x1024 (![0, 2] : Fin 2 → Fin S32x1x1024.rank)
  bcast_S32x1x1024_S32x512x1024_0_1_2 : S32x1x1024.BroadcastsInDim S32x512x1024 (![0, 1, 2] : Fin 3 → Fin S32x512x1024.rank)
  bcast_S_S32x512x1 : S_.BroadcastsInDim S32x512x1 (![] : Fin 0 → Fin S32x512x1.rank)
  bcast_S32x512x1_S32x512x1024_0_1_2 : S32x512x1.BroadcastsInDim S32x512x1024 (![0, 1, 2] : Fin 3 → Fin S32x512x1024.rank)
  bcast_S1x1024_S1x1x1024_1_2 : S1x1024.BroadcastsInDim S1x1x1024 (![1, 2] : Fin 2 → Fin S1x1x1024.rank)
  bcast_S1x1x1024_S32x512x1024_0_1_2 : S1x1x1024.BroadcastsInDim S32x512x1024 (![0, 1, 2] : Fin 3 → Fin S32x512x1024.rank)
  concatenates_S32x1x1024_S32x512x1024_S32x513x1024_d1 : Shape.Concatenates [S32x1x1024, S32x512x1024] S32x513x1024 1
  gather_S16x512x1024_S32x1_S32x512x1024_12_0_n_n_0_1_15121024_wf : GatherDims.WF S16x512x1024 S32x1 S32x512x1024 [1, 2] [0] [] [0] [] 1 ![1, 512, 1024]
  gather_S16x1024_S32x1_S32x1024_1_0_n_n_0_1_11024_wf : GatherDims.WF S16x1024 S32x1 S32x1024 [1] [0] [] [0] [] 1 ![1, 1024]
  dot_S32x512x512_S32x512x1024_S32x512x1024_2_1_1_2_0_0_wf : DotDims.WF S32x512x512 S32x512x1024 S32x512x1024 [2] [1] [1] [2] [0] [0]

variable [Facts₀]

def gather_S16x512x1024_S32x1_S32x512x1024_12_0_n_n_0_1_15121024 : GatherDims S16x512x1024 S32x1 S32x512x1024 where
  offsetDims := [1, 2]
  collapsedSliceDims := [0]
  operandBatchingDims := []
  startIndicesBatchingDims := []
  startIndexMap := [0]
  indexVectorDim := 1
  sliceSizes := ![1, 512, 1024]
  wf := gather_S16x512x1024_S32x1_S32x512x1024_12_0_n_n_0_1_15121024_wf
def gather_S16x1024_S32x1_S32x1024_1_0_n_n_0_1_11024 : GatherDims S16x1024 S32x1 S32x1024 where
  offsetDims := [1]
  collapsedSliceDims := [0]
  operandBatchingDims := []
  startIndicesBatchingDims := []
  startIndexMap := [0]
  indexVectorDim := 1
  sliceSizes := ![1, 1024]
  wf := gather_S16x1024_S32x1_S32x1024_1_0_n_n_0_1_11024_wf
def dot_S32x512x512_S32x512x1024_S32x512x1024_2_1_1_2_0_0 : DotDims S32x512x512 S32x512x1024 S32x512x1024 where
  lhsContracting := [2]
  rhsContracting := [1]
  lhsNonContracting := [1]
  rhsNonContracting := [2]
  lhsBatch := [0]
  rhsBatch := [0]
  wf := dot_S32x512x512_S32x512x1024_S32x512x1024_2_1_1_2_0_0_wf

class Facts : Prop extends Facts₀ where

variable [Facts]
-- ==== Proof.PreIds.lean ====
/-
  The integer-range conjunct of the printed precondition, decoded, for any float instance.

  The precondition is a conjunction of one-bit words; its last conjunct is the reduction by `and`, over all 32
  positions, of  (ids ≥ 0) ∧ (ids < 16)  with both comparisons signed. If the whole conjunction is 1 then this
  conjunct is 1, so every position's bit is 1, so at every position the signed value of the word lies in [0, 16).
  A 32-bit word whose signed value is nonnegative has its top bit clear, hence reads the same signed and unsigned:
  its unsigned value is below 16 as well. The six floating-point conjuncts are only projected past.
-/
import proofs.«405792_j67817533604482_1_alg».proof.Pre_finite_inputs
import Idealize.ShloMosaic.Lib.StableHlo.Predicate
import Idealize.ShloMosaic.Lib.ReduceAll
import Idealize.ShloMosaic.Lib.ValueIdx

namespace Cert.PreIds

open Idealize.ShloMosaic Idealize.ShloMosaic.ValueIdx
open Cert.Pre_finite_inputs

variable {F : FTy → Type} [FloatOps F] [Cert.Pre_finite_inputs.Facts]

/-- Every id is, read signed, in [0, 16). -/
theorem ids_range (x0 : FVec F S32x512x512 .f32) (x1 : FVec F S32x512x1 .f32) (x2 : FVec F S16x512x1024 .f32)
    (x3 : FVec F S16x1024 .f32) (x4 : FVec F S16x1024 .f32) (x5 : FVec F S1x1024 .f32) (x6 : IVec S32 32)
    (h : Cert.Pre_finite_inputs.fn (F := F) x0 x1 x2 x3 x4 x5 x6 = fun _ => 1#1) :
    ∀ bb : Fin 32, 0 ≤ (x6 (ix1 bb)).toInt ∧ (x6 (ix1 bb)).toInt < 16 := by
  intro bb
  -- the scalar shape has one index
  haveI : Subsingleton S_.Idx := ⟨fun a b => funext fun d => d.elim0⟩
  -- the predicate at its one index, as the nested conjunction of its seven tests
  have e := congrFun h ix0
  dsimp only [fn, fn_part1, fn_part2] at e
  -- the last conjunct: the reduction by `and` of the range test
  have eLast := (IntOp.andi_eq_one.1 e).2
  -- a reduction by `and` over every axis that is 1 met a 1 at every position
  have eAt := Host.reduce_andi_all _ _ _ _ _ eLast (ix1 bb)
  -- at position bb the bit is the `and` of the two comparisons' bits
  obtain ⟨hge, hlt⟩ := IntOp.andi_eq_one.1 eAt
  -- each compares the word at bb with a broadcast literal, which reads the literal everywhere
  have hge' : IntOp.cmpi .sge (x6 (ix1 bb)) (0#32) = 1#1 := hge
  have hlt' : IntOp.cmpi .slt (x6 (ix1 bb)) (16#32) = 1#1 := hlt
  have h0 : (0#32 : BitVec 32).toInt = 0 := by decide
  have h16 : (16#32 : BitVec 32).toInt = 16 := by decide
  refine ⟨?_, ?_⟩
  · have := IntOp.cmpi_sge.1 hge'
    rwa [h0] at this
  · have := IntOp.cmpi_slt.1 hlt'
    rwa [h16] at this

/-- A 32-bit word whose signed value is in [0, 16) has that unsigned value: its top bit is clear. -/
theorem toNat_lt_of_toInt (w : BitVec 32) (h0 : 0 ≤ w.toInt) (h16 : w.toInt < 16) : w.toNat < 16 := by
  have hw := w.isLt
  unfold BitVec.toInt at h0 h16
  split at h0 <;> omega

/-- Every id is, read unsigned, below 16. -/
theorem ids_toNat_lt (x0 : FVec F S32x512x512 .f32) (x1 : FVec F S32x512x1 .f32) (x2 : FVec F S16x512x1024 .f32)
    (x3 : FVec F S16x1024 .f32) (x4 : FVec F S16x1024 .f32) (x5 : FVec F S1x1024 .f32) (x6 : IVec S32 32)
    (h : Cert.Pre_finite_inputs.fn (F := F) x0 x1 x2 x3 x4 x5 x6 = fun _ => 1#1) :
    ∀ bb : Fin 32, (x6 (ix1 bb)).toNat < 16 := fun bb =>
  toNat_lt_of_toInt _ (ids_range x0 x1 x2 x3 x4 x5 x6 h bb).1 (ids_range x0 x1 x2 x3 x4 x5 x6 h bb).2

/-- Every id reads the same signed and unsigned. -/
theorem ids_toInt_eq (x0 : FVec F S32x512x512 .f32) (x1 : FVec F S32x512x1 .f32) (x2 : FVec F S16x512x1024 .f32)
    (x3 : FVec F S16x1024 .f32) (x4 : FVec F S16x1024 .f32) (x5 : FVec F S1x1024 .f32) (x6 : IVec S32 32)
    (h : Cert.Pre_finite_inputs.fn (F := F) x0 x1 x2 x3 x4 x5 x6 = fun _ => 1#1) :
    ∀ bb : Fin 32, (x6 (ix1 bb)).toInt = (((x6 (ix1 bb)).toNat : ℕ) : ℤ) := fun bb =>
  StableHlo.Predicate.toInt_eq_toNat_of_lt (by
    have := ids_toNat_lt x0 x1 x2 x3 x4 x5 x6 h bb
    omega)

end Cert.PreIds
-- ==== Proof.Kernel.BodyRun.lean ====
/-
  The kernel body on any staging buffers. One grid point's body reads five input blocks — a sample's input rows,
  the selected subject's weight slab and bias row, the sample's mask column, the mask-token row — and stores the
  blended affine image over the WHOLE output block; it never reads the subject-id table it is handed. From the
  inputs' buffers at any contents and the output's at anything, the body runs to its return with the inputs as they
  were and the output holding the one stored value, the body's arithmetic as one pure term of the five loads.
-/
import proofs.«405792_j67817533604482_1_alg».proof.Proof.Gen.Kernel.Launch
import proofs.«405792_j67817533604482_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- One staging buffer of the output window, through which the stored contents are stated (the choice of
    buffer does not matter: the pieces cover the block). -/
abbrev VO : View sig .tc .vmem S1x512x1024 .f32 := (Memref.whole cc0_stg5_0 : Memref sig .tc .vmem S1x512x1024 .f32).view

set_option maxHeartbeats 1000000 in
/-- The pieces the body's stores leave in the output's staging memref, WITH the proof that on whole staging memrefs —
    the five inputs' at their contents, the output's at anything — the body runs to the continuation holding the
    inputs as they were and the output's buffer with those pieces written. -/
noncomputable def kernelRun (c : Dev nD) (i : grid0.Coords) (arg1 : Memref sig .tc .smem S32 .i32) (harg1 : arg1.IsWhole)
    (arg2 : Memref sig .tc .vmem S1x512x512 .f32) (harg2 : arg2.IsWhole) (arg3 : Memref sig .tc .vmem S1x512x1024 .f32) (harg3 : arg3.IsWhole)
    (arg4 : Memref sig .tc .vmem S1x1x1024 .f32) (harg4 : arg4.IsWhole) (arg5 : Memref sig .tc .vmem S1x512x1 .f32) (harg5 : arg5.IsWhole)
    (arg6 : Memref sig .tc .vmem S1x1024 .f32) (harg6 : arg6.IsWhole) (arg7 : Memref sig .tc .vmem S1x512x1024 .f32) (harg7 : arg7.IsWhole)
    (x0 : Vec F S1x512x512 .f32) (x1 : Vec F S1x512x1024 .f32) (x2 : Vec F S1x1x1024 .f32) (x3 : Vec F S1x512x1 .f32) (x4 : Vec F S1x1024 .f32) :
    { L : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E
              (cc0__dispatch_kernel i arg1 harg1 arg2 harg2 arg3 harg3 arg4 harg4 arg5 harg5 arg6 harg6 arg7 harg7) K } := by
  refine ⟨?_, fun E K => ?run⟩
  case run =>
    simp only [cc0__dispatch_kernel_eq_skeleton]; unfold cc0__dispatch_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0
    obtain rfl := harg3.eq_unread hf1
    obtain rfl := harg4.eq_unread hf2
    obtain rfl := harg5.eq_unread hf3
    obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-- The body's one store is of the whole block: the pieces cover it. -/
theorem cover (c : Dev nD) (i : grid0.Coords) (arg1 : Memref sig .tc .smem S32 .i32) (harg1 : arg1.IsWhole)
    (arg2 : Memref sig .tc .vmem S1x512x512 .f32) (harg2 : arg2.IsWhole) (arg3 : Memref sig .tc .vmem S1x512x1024 .f32) (harg3 : arg3.IsWhole)
    (arg4 : Memref sig .tc .vmem S1x1x1024 .f32) (harg4 : arg4.IsWhole) (arg5 : Memref sig .tc .vmem S1x512x1 .f32) (harg5 : arg5.IsWhole)
    (arg6 : Memref sig .tc .vmem S1x1024 .f32) (harg6 : arg6.IsWhole) (arg7 : Memref sig .tc .vmem S1x512x1024 .f32) (harg7 : arg7.IsWhole)
    (x0 : Vec F S1x512x512 .f32) (x1 : Vec F S1x512x1024 .f32) (x2 : Vec F S1x1x1024 .f32) (x3 : Vec F S1x512x1 .f32) (x4 : Vec F S1x1024 .f32) (y : S1x512x1024.Idx) :
    ∃ pc ∈ (kernelRun c i arg1 harg1 arg2 harg2 arg3 harg3 arg4 harg4 arg5 harg5 arg6 harg6 arg7 harg7 x0 x1 x2 x3 x4).1, y ∈ pc.1.set :=
  View.cover_of_wholeMem (kernelRun c i arg1 harg1 arg2 harg2 arg3 harg3 arg4 harg4 arg5 harg5 arg6 harg6 arg7 harg7 x0 x1 x2 x3 x4).1 (by sl_whole_mem) y

/-- What the body leaves in the output's staging buffer: its pieces read back over junk. -/
def out (c : Dev nD) (i : grid0.Coords) (arg1 : Memref sig .tc .smem S32 .i32) (harg1 : arg1.IsWhole)
    (arg2 : Memref sig .tc .vmem S1x512x512 .f32) (harg2 : arg2.IsWhole) (arg3 : Memref sig .tc .vmem S1x512x1024 .f32) (harg3 : arg3.IsWhole)
    (arg4 : Memref sig .tc .vmem S1x1x1024 .f32) (harg4 : arg4.IsWhole) (arg5 : Memref sig .tc .vmem S1x512x1 .f32) (harg5 : arg5.IsWhole)
    (arg6 : Memref sig .tc .vmem S1x1024 .f32) (harg6 : arg6.IsWhole) (arg7 : Memref sig .tc .vmem S1x512x1024 .f32) (harg7 : arg7.IsWhole)
    (x0 : Vec F S1x512x512 .f32) (x1 : Vec F S1x512x1024 .f32) (x2 : Vec F S1x1x1024 .f32) (x3 : Vec F S1x512x1 .f32) (x4 : Vec F S1x1024 .f32) : Vec F S1x512x1024 .f32 :=
  VO.read (Elt F) (VO.writes (Elt F) VO.junk (kernelRun c i arg1 harg1 arg2 harg2 arg3 harg3 arg4 harg4 arg5 harg5 arg6 harg6 arg7 harg7 x0 x1 x2 x3 x4).1)

theorem hz3 : (![0, 0, 0] : Fin 3 → Nat) = fun _ => 0 := funext fun a => by fin_cases a <;> rfl
theorem hz2 : (![0, 0] : Fin 2 → Nat) = fun _ => 0 := funext fun a => by fin_cases a <;> rfl

/-- It is the body's arithmetic of the five loads: the one stored value, the whole block. -/
theorem out_eq (c : Dev nD) (i : grid0.Coords) (arg1 : Memref sig .tc .smem S32 .i32) (harg1 : arg1.IsWhole)
    (arg2 : Memref sig .tc .vmem S1x512x512 .f32) (harg2 : arg2.IsWhole) (arg3 : Memref sig .tc .vmem S1x512x1024 .f32) (harg3 : arg3.IsWhole)
    (arg4 : Memref sig .tc .vmem S1x1x1024 .f32) (harg4 : arg4.IsWhole) (arg5 : Memref sig .tc .vmem S1x512x1 .f32) (harg5 : arg5.IsWhole)
    (arg6 : Memref sig .tc .vmem S1x1024 .f32) (harg6 : arg6.IsWhole) (arg7 : Memref sig .tc .vmem S1x512x1024 .f32) (harg7 : arg7.IsWhole)
    (x0 : Vec F S1x512x512 .f32) (x1 : Vec F S1x512x1024 .f32) (x2 : Vec F S1x1x1024 .f32) (x3 : Vec F S1x512x1 .f32) (x4 : Vec F S1x1024 .f32) :
    out c i arg1 harg1 arg2 harg2 arg3 harg3 arg4 harg4 arg5 harg5 arg6 harg6 arg7 harg7 x0 x1 x2 x3 x4 = k0_pay1 x0 x1 x2 x3 x4 := by
  unfold out
  rw [View.read_writes_eq_canon _ _ _ (cover c i arg1 harg1 arg2 harg2 arg3 harg3 arg4 harg4 arg5 harg5 arg6 harg6 arg7 harg7 x0 x1 x2 x3 x4)]
  unfold kernelRun
  dsimp only
  sl_unfold_words
  rw [View.canon_unit_zero hz3]
  simp only [View.readAt_eq_ld, harg2.read_unread, harg3.read_unread, harg4.read_unread, harg5.read_unread, harg6.read_unread,
    View.ld_unit_zero (S := S1x512x512) hz3, View.ld_unit_zero (S := S1x512x1024) hz3, View.ld_unit_zero (S := S1x1x1024) hz3,
    View.ld_unit_zero (S := S1x512x1) hz3, View.ld_unit_zero (S := S1x1024) hz2]

end Cert.Kernel.Hand

end
-- ==== Proof.Kernel.Data.lean ====
/-
  The pipeline's proof data. The region is entered after the one host operation that lays the bias table out as
  [16, 1, 1024]; the subject-id table the index maps read is the launch memory's, and the pipeline runs at those
  contents under the side condition that every id names a row of the weight and bias tables. At every grid point
  each input's current staging buffer holds that window's block of its array (fetched there or not), the body
  leaves the inputs in place and the output's buffer at its arithmetic of the five blocks, and the invariant carried
  from point to point is the id table (whole) beside the scoped buffers the pipeline does not stage.
-/
import proofs.«405792_j67817533604482_1_alg».proof.Proof.Kernel.BodyRun
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s unscoped buffers at launch, -/
abbrev V0 (c : Dev nD) : Valuation τ sig (Elt F) := fun b => m (c, b)
/-- and when the region is entered: the bias table has been laid out. -/
abbrev V1 (c : Dev nD) : Valuation τ sig (Elt F) := StableHlo.after hostOps0 (V0 m c)
/-- The same, read at a TensorCore reference. -/
abbrev V (c : Dev nD) (b : Ref sig .tc) : Buf (Elt F) ((c : Thread nD τ).loc b) := V1 m c (Proc.devRef .tc b)

/-- The one host operation before the region writes the laid-out bias table and nothing else. -/
abbrev hostOps0_W : List (Ref sig .tc) := [main_v0]
theorem hostOps0_fresh : (hostOps0 : List (HloOp τ sig (Elt F))).Forall fun op => op.fresh = ∅ := by
  simp only [List.Forall]; repeat' constructor
theorem hostOps0_writes : (hostOps0 : List (HloOp τ sig (Elt F))).Forall fun op => op.writes ⊆ (hostOps0_W.map (Proc.devRef (τ := τ) .tc)).toFinset := by
  simp only [List.Forall]; exact (by simp only [StableHlo.unary_writes, Finset.singleton_subset_iff, List.mem_toFinset]; exact List.mem_map_of_mem (by decide))
theorem V1_of (c : Dev nD) (r : Ref sig .tc) (h : r ∉ hostOps0_W) : V1 m c r = V0 m c r :=
  StableHlo.after_of_writes_sub hostOps0 _ hostOps0_writes h

/-! ## The subject-id table -/

/-- The table's contents when the region is entered (the program runs on ONE device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The pipeline's side condition of the table: at every grid point the selected weight slab and bias row lie
    inside their tables. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-! ## The windows' blocks and staging memrefs -/

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S1x512x512 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x512x1024 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1024 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x512x1 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x512x1024 .f32 := spec0_5.stage ((cfgM m hO).slots t 5)
abbrev hs5 (hO : Ok m) (t : Fin (cfgM m hO).N) : (ms5 m hO t).IsWhole := hstage0_5 (((cfgM m hO).slots t 5).cast nbuf0_5)

/-- The kernel body at point `t`, on what the pipeline calls it with. -/
abbrev bodyAt (hO : Ok m) (t : Fin (cfgM m hO).N) : Prog (TpuEff nD τ sig (Elt F) Λ₀ .tc) PUnit :=
  cc0__dispatch_kernel (grid0.coords t) (Memref.whole main_arg6) (Memref.isWhole_whole _) (ms0 m hO t) (hs0 m hO t) (ms1 m hO t) (hs1 m hO t)
    (ms2 m hO t) (hs2 m hO t) (ms3 m hO t) (hs3 m hO t) (ms4 m hO t) (hs4 m hO t) (ms5 m hO t) (hs5 m hO t)

/-- What the body leaves in the output's staging buffer at point `t`: its arithmetic of the point's five blocks. -/
def outAt (hO : Ok m) (c : Dev nD) (t : Fin (cfgM m hO).N) : Vec F S1x512x1024 .f32 :=
  out c (grid0.coords t) (Memref.whole main_arg6) (Memref.isWhole_whole _) (ms0 m hO t) (hs0 m hO t) (ms1 m hO t) (hs1 m hO t)
    (ms2 m hO t) (hs2 m hO t) (ms3 m hO t) (hs3 m hO t) (ms4 m hO t) (hs4 m hO t) (ms5 m hO t) (hs5 m hO t)
    (iblk m hO c 0 t) (iblk m hO c 1 t) (iblk m hO c 2 t) (iblk m hO c 3 t) (iblk m hO c 4 t)

theorem outAt_eq (hO : Ok m) (c : Dev nD) (t : Fin (cfgM m hO).N) :
    outAt m hO c t = k0_pay1 (iblk m hO c 0 t) (iblk m hO c 1 t) (iblk m hO c 2 t) (iblk m hO c 3 t) (iblk m hO c 4 t) :=
  out_eq c (grid0.coords t) (Memref.whole main_arg6) (Memref.isWhole_whole _) (ms0 m hO t) (hs0 m hO t) (ms1 m hO t) (hs1 m hO t)
    (ms2 m hO t) (hs2 m hO t) (ms3 m hO t) (hs3 m hO t) (ms4 m hO t) (hs4 m hO t) (ms5 m hO t) (hs5 m hO t)
    (iblk m hO c 0 t) (iblk m hO c 1 t) (iblk m hO c 2 t) (iblk m hO c 3 t) (iblk m hO c 4 t)

/-! ## The proof data -/

/-- The invariant between points: the id table whole at its contents, and the scoped buffers no window stages. -/
abbrev Φc (c : Dev nD) : sProp 𝕄 :=
  iprop(Pipeline.prefHeld pre0 c (fun _ => fullShare) (tbl m) ∗ Pipeline.scopedRest spec0 c)

/-- The proof data on core `c`: the arrays as the region finds them; after the body each input's buffer at its block
    and the output's at the body's arithmetic; the invariant above; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ _ := Φc m c
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = outAt m hO c t := by dsimp only [dats]; try rfl

/-- An input's current staging buffer holds its block at every point, fetched there or not: unfetched, the block
    index has not moved since the point that fetched it. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

/-- The body at any point: the inputs' memrefs hold their blocks, so the run applies; the invariant passes through
    untouched; the core owes nothing throughout. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5]
  unfold outAt
  unfold out
  iintro ⟨HΦ, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ (iblk m hO c 0 t) (iblk m hO c 1 t) (iblk m hO c 2 t) (iblk m hO c 3 t) (iblk m hO c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover c _ _ _ _ _ _ _ _ _ _ _ _ _ _ _ _ _ _ _ _)

/-- The library's body obligation, at every point. -/
theorem body_obligation (hO : Ok m) (c : Dev nD) : BodyObligation (dats (F := F) m hO 0 c) (defs₀ (F := F)) Variants.none () Set.univ := fun t => by
  rw [bigSep_W0, bigSep_W0]
  exact sound_body m hO c t

end Cert.Kernel.Hand

end
-- ==== Proof.Kernel.Launch.lean ====
/-
  The run of the whole program. @main is one host operation (the bias table laid out as [16, 1, 1024]), the kernel
  region, and eleven host operations that gather the subject embedding rows by the same id table and join them, as
  position 0, to the region's result. Between these three stretches the core holds every unscoped buffer at a known
  valuation: the launch contents; after the first operation; after the region, where only the result array has
  changed, to what the proof data computes; after the tail. The region takes the id table whole into its invariant
  and gives it back whole at its exit, so the tail reads it again. Every weakly fair execution terminates and every
  final memory holds each unscoped buffer at the last valuation.
-/
import proofs.«405792_j67817533604482_1_alg».proof.Proof.Kernel.Data
import Idealize.ShloMosaic.Lib.Pipeline.Frame
import Idealize.ShloMosaic.Lib.Pipeline.FrameSuffix
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- The pipeline library's algebra is the whole user algebra. -/
abbrev EP : Emb (UR sig nD τ) (MT nD τ sig Unit (Elt F) ℕ (UR sig nD τ) ℕ) := emb₁

/-- The id table's admissible contents, for the one pipeline. -/
abbrev admF (hO : Ok m) : (p : Fin 1) → (pcfgs (F := F) p).Adm := fun _ => adm m hO

/-- What rides beside the buffers: the core owes nothing. -/
abbrev Rst (c : Dev nD) : sProp 𝕄 := iprop(∃ W, owes (c : Thread nD τ) (0 : CellTallies nD τ sig Unit) W)

/-! ## The valuations after the region and after the tail -/

/-- Core `c`'s unscoped buffers after the region: the pipeline's arrays at what the proof data computes (the inputs
    unchanged, the result written back block by block), every other buffer as the region found it. -/
def V2 (hO : Ok m) (c : Dev nD) : Valuation τ sig (Elt F) :=
  Pipeline.withArrays spec0 c (V1 m c) (fun w => (dats m hO 0 c).arrAt w (cfgM m hO).N)
/-- and after the eleven operations of the tail. -/
abbrev V3 (hO : Ok m) (c : Dev nD) : Valuation τ sig (Elt F) := StableHlo.after hostOps1 (V2 m hO c)

theorem V2_arr (hO : Ok m) (c : Dev nD) (w : Fin (cfgM m hO).W) :
    V2 m hO c (Proc.devRef .tc (Pipeline.arrRef spec0 w)) = (dats m hO 0 c).arrAt w (cfgM m hO).N :=
  Pipeline.withArrays_arr spec0 (launch0 (F := F)).win.arr_inj c (V1 m c) _ w
theorem V2_of_ne (hO : Ok m) (c : Dev nD) (b : Ref sig .tc) (hb : ∀ w, Pipeline.arrRef spec0 w ≠ b) :
    V2 m hO c (Proc.devRef .tc b) = V1 m c (Proc.devRef .tc b) :=
  Pipeline.withArrays_of_ne spec0 c (V1 m c) _ b hb

theorem hostOps1_fresh : (hostOps1 : List (HloOp τ sig (Elt F))).Forall fun op => op.fresh = ∅ := by
  simp only [List.Forall]; repeat' constructor

/-! ## The segments -/

/-- The first host stretch, over the unscoped buffers from the launch contents. -/
def seg0 : HostSeg (Ix := Unit) (Name := ℕ) (U := UR sig nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Rst

/-- The tail, over the unscoped buffers from what the region left. -/
def seg2 (hO : Ok m) : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m hO) Rst

set_option backward.isDefEq.respectTransparency.types false in
/-- THE REGION: entered from every unscoped buffer at the valuation the first stretch left — the windows' arrays into
    the pipeline, the id table into the invariant, everything else bypassing —, left with every unscoped buffer at the
    valuation updated at the arrays. -/
def reg0 (hO : Ok m) : RegionSeg (pcfgs (F := F)) (admF m hO) (dats m hO) () defs₀ 𝒱₀ L lv 0 where
  win := (launch0 (F := F)).win.to₀
  block_pos := (launch0 (F := F)).block_pos
  stage_whole := (launch0 (F := F)).stage_whole
  K := PEmpty
  osem := fun k => k.elim
  ho := Pipeline.OwnSemFacts.none _
  hbody c := (body_obligation m hO c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (V2 m hO c) ∗ Rst c)
  X c := iprop(emp)
  Y c := Pipeline.prefHeld pre0 c (fun _ => fullShare) (tbl m)
  Z c := Pipeline.unscopedRestP pre0 spec0 c (V m c)
  hentry c := by
    rw [show StableHlo.held (c : Thread nD τ) (Pipeline.ucRefs τ sig) (V1 m c) = unscopedBufs c (V m c) from (Pipeline.unscopedBufs_held c _).symm]
    have hsplit := (Pipeline.arrays_of_unscopedBufs (pcfgs (F := F)) (admF m hO) (dats m hO) (launch0 (F := F)).win (launch0 (F := F)).arr_whole c
      ((dats m hO 0 c).share_full fun _ => rfl) (V m c) (A_eq m hO c)).trans
        (sep_mono .rfl (Entails.of_eq (Pipeline.unscopedRest_split (launch0 (F := F)).pre c (V m c))))
    rw [show (fun k => V m c (pre0.ref k)) = tbl m from funext fun k => V_pre m c k] at hsplit
    iintro ⟨⟨Hub, HO⟩, -, -⟩
    ihave H := hsplit $$ Hub
    icases H with ⟨Ha, Hp, Hr⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr [Hr]; · iempintro
    iexact Hr
  hin c := by
    rw [show (dats m hO 0 c).Φ 0 = Φc m c from rfl]
    iintro ⟨-, Hp, Hr⟩
    isplitl [Hp] <;> iassumption
  hout c := by
    rw [Pipeline.ownSems0_none, show (dats m hO 0 c).Φ (Fin.last (cfgM m hO).N) = Φc m c from rfl]
    iintro ⟨Hp, Hr⟩
    isplitl [Hp]; · iexact Hp
    isplitr; · iempintro
    iexact Hr
  hexit c := by
    rw [show StableHlo.held (c : Thread nD τ) (Pipeline.ucRefs τ sig) (V2 m hO c) = unscopedBufs c (fun b => V2 m hO c (Proc.devRef .tc b))
      from (Pipeline.unscopedBufs_held c _).symm]
    have hjoin := Pipeline.unscopedBufs_of_arrays (pcfgs (F := F)) (admF m hO) (p := 0) (launch0 (F := F)).win (launch0 (F := F)).arr_whole c (dats m hO)
      ((dats m hO 0 c).share_full fun _ => rfl) (V m c) (fun b => V2 m hO c (Proc.devRef .tc b))
      (fun w => (dats m hO 0 c).arrAt w (cfgM m hO).N) (fun w => (V2_arr m hO c w).symm)
      (fun b hb => V2_of_ne m hO c b fun w e => hb (Finset.mem_image.mpr ⟨w, Finset.mem_univ _, e⟩))
    rw [Pipeline.unscopedRest_split (launch0 (F := F)).pre c (V m c), show (fun k => V m c (pre0.ref k)) = tbl m from funext fun k => V_pre m c k] at hjoin
    iintro ⟨Ha, HO, Hp, Hr⟩
    imodintro
    isplitr [HO]
    · iapply hjoin
      isplitl [Ha]; · iexact Ha
      isplitl [Hp] <;> iassumption
    · unfold Pipeline.Dat.owesAt Pipeline.owesWithin
      icases HO with ⟨%W, -, HO⟩; iexists W; iexact HO

/-- @main as the list of the three. -/
abbrev segs (hO : Ok m) : List (Seg (pcfgs (F := F)) (admF m hO) (dats m hO) () defs₀ 𝒱₀ L lv) :=
  [.host (seg0 m), .region (reg0 m hO), .host (seg2 m hO)]

/-- What a final memory holds: every unscoped buffer of every core at the last valuation. -/
def QF (hO : Ok m) : PUnit × MemSt nD τ sig (Elt F) → Prop := fun r =>
  ∀ c : Dev nD, ∀ b ∈ Pipeline.ucRefs τ sig, r.2.mem ((c : Thread nD τ).1, b) = V3 m hO c b

set_option backward.isDefEq.respectTransparency.types false in
/-- At the compiled mesh, for any values, from any memory with zero counters whose id table passes the pipeline's
    side condition: every weakly fair execution of @main on the TensorCores terminates, nothing faulting, and every
    final memory holds every unscoped buffer at the last valuation. -/
theorem run_main (hO : Ok m) : θ_run defs (onTc (τ := τ) (main (F := F))) ⟨m, fun _ => 0, ρ⟩ (QF m hO) :=
  Pipeline.θ_run_regions_kit (pcfgs (F := F)) (admF m hO) (dats m hO) () (cellOf_inj (admF m hO)) EP defs₀ 𝒱₀ L lv m ρ main (segs m hO)
    (fun c Q => by rw [main_segs (admF m hO) (dats m hO) () 𝒱₀ L lv (seg0 m) (seg2 m hO) (reg0 m hO) rfl rfl c])
    (by simp only [Seg.pipes_host, Seg.pipes_region, Seg.pipes_nil]; decide) (O₀ := 0) (hL := fun _ _ => rfl) (G := fun _ => iprop(emp))
    (u₀ := initOf (Pipeline.cells (Pipeline.pin pcfgs (admF m hO)) (cellOf_inj (admF m hO))) (Pipeline.launchToks (Pipeline.pin pcfgs (admF m hO)) (cellOf_inj (admF m hO))))
    (hu₀ := by
      iintro Hu; imodintro
      isplitl [Hu]
      · iapply (show (ownU _ : sProp 𝕄) ⊢ BI.own (emb₁ (initOf (Pipeline.cells (Pipeline.pin pcfgs (admF m hO)) (cellOf_inj (admF m hO))) (Pipeline.launchToks (Pipeline.pin pcfgs (admF m hO)) (cellOf_inj (admF m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V3 m hO c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = V3 m hO c b)
    (hfin := fun c s' => by
      unfold StableHlo.held
      iintro ⟨Hh, HSI⟩
      ihave Hr := (pointsTo_read_all (Pipeline.ucRefs τ sig) (fun b => ((c : Thread nD τ).1, b)) (V3 m hO c) s') $$ [Hh HSI]
      · isplitl [Hh] <;> iassumption
      icases Hr with ⟨%h, HSI⟩
      imodintro
      isplitr; · ipureintro; exact h
      iexact HSI)
    (hQ := fun _ h => h)

end Cert.Kernel.Hand

end
-- ==== Proof.Kernel.Frame.lean ====
/-
  The frame. No stretch of @main writes an argument: the two host stretches write only their own results, and
  the region changes only its result array (an input window's array ends as the region found it). So at the last
  valuation each argument is the launch memory's, which is what every final memory holds. The pipeline's side
  condition on the id table holds as soon as every id, read unsigned, is below the sixteen rows of the weight and
  bias tables: the selected slab and row are then inside their arrays.
-/
import proofs.«405792_j67817533604482_1_alg».proof.Proof.Kernel.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the tail writes -/

abbrev hostOps1_W : List (Ref sig .tc) := [main_c, main_v2, main_v3, main_c_0, main_v4, main_v5, main_v6, main_v7, main_v8, main_v9, main_v10]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_⟩ <;>
    (simp only [StableHlo.nullary_writes, StableHlo.unary_writes, StableHlo.binary_writes, StableHlo.ternary_writes,
      Finset.singleton_subset_iff, List.mem_toFinset]; exact List.mem_map_of_mem (by decide))
theorem V3_of (hO : Ok m) (c : Dev nD) (r : Ref sig .tc) (h : r ∉ hostOps1_W) : V3 m hO c r = V2 m hO c r :=
  StableHlo.after_of_writes_sub hostOps1 _ hostOps1_writes h

/-! ## The arguments at the last valuation -/

/-- An input window's array ends as launched: the region leaves it as it found it, and the first stretch did not write it. -/
theorem V3_in (hO : Ok m) (c : Dev nD) (w : Fin (cfgM m hO).W) (hw : ((cfgM m hO).win w).isOut = false) (r : Ref sig .tc)
    (hr : Pipeline.arrRef spec0 w = r) (h1 : r ∉ hostOps1_W) (h0 : r ∉ hostOps0_W) :
    V3 m hO c r = m ((c.tc : Thread nD τ).loc r) := by
  subst hr
  exact (V3_of m hO c _ h1).trans ((V2_arr m hO c w).trans (((dats m hO 0 c).arrAt_in w hw _).trans ((A_eq m hO c w).trans (V1_of m c _ h0))))

/-- An argument no window stages bypasses the region. -/
theorem V3_by (hO : Ok m) (c : Dev nD) (r : Ref sig .tc) (hr : ∀ w, Pipeline.arrRef spec0 w ≠ r) (h1 : r ∉ hostOps1_W) (h0 : r ∉ hostOps0_W) :
    V3 m hO c r = m ((c.tc : Thread nD τ).loc r) :=
  (V3_of m hO c r h1).trans ((V2_of_ne m hO c r hr).trans (V1_of m c r h0))

theorem mem_uc (b : Ref sig .tc) (hb : (Proc.devRef (τ := τ) .tc b).isScoped = false) : Proc.devRef .tc b ∈ Pipeline.ucRefs τ sig :=
  Finset.mem_filter.mpr ⟨StableHlo.devRef_mem_tcRefs b, by rw [hb]; exact Bool.false_ne_true⟩

/-- What a final memory of the run holds at the arguments: the launch contents. -/
theorem kept (hO : Ok m) (r : PUnit × MemSt nD τ sig (Elt F)) (h : QF m hO r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
    ⟨(h c _ (mem_uc main_arg0 rfl)).trans (V3_in m hO c 0 rfl main_arg0 rfl (by decide) (by decide)),
     (h c _ (mem_uc main_arg1 rfl)).trans (V3_in m hO c 3 rfl main_arg1 rfl (by decide) (by decide)),
     (h c _ (mem_uc main_arg2 rfl)).trans (V3_in m hO c 1 rfl main_arg2 rfl (by decide) (by decide)),
     (h c _ (mem_uc main_arg3 rfl)).trans (V3_by m hO c main_arg3 (by decide) (by decide) (by decide)),
     (h c _ (mem_uc main_arg4 rfl)).trans (V3_by m hO c main_arg4 (by decide) (by decide) (by decide)),
     (h c _ (mem_uc main_arg5 rfl)).trans (V3_in m hO c 4 rfl main_arg5 rfl (by decide) (by decide)),
     (h c _ (mem_uc main_arg6 rfl)).trans (V3_by m hO c main_arg6 (by decide) (by decide) (by decide))⟩

/-- THE FRAME, at any float instance, under the pipeline's side condition on the id table. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => kept m hO r h c) (run_main m ρ hO)

/-! ## The side condition from the ids' range -/

/-- The id table is the launch memory's (the first stretch does not write it). -/
theorem tbl_eq : tbl m 0 = m (((0 : Dev nD).tc : Thread nD τ).loc main_arg6) := V1_of m 0 main_arg6 (by decide)

/-- Every id below sixteen, read unsigned: the selected weight slab and bias row are inside their tables. -/
theorem ok_of_lt (h : ∀ x : S32.Idx, (tbl m 0 x).toNat < 16) : Ok m := by
  refine ⟨fun i => ?_, fun i => ?_⟩
  · obtain ⟨w, hw, e⟩ : ∃ w : BitVec 32, w.toNat < 16 ∧ cc0_transform_1 Facts₀.k0_off1_inb Facts₀.numel1_S1 (tbl m) i = ![w.toNat, 0, 0] :=
      ⟨_, h _, rfl⟩
    refine ⟨fun a => ?_, Or.inl rfl⟩
    rw [e]
    fin_cases a <;> simp [S1x512x1024, S16x512x1024] <;> omega
  · obtain ⟨w, hw, e⟩ : ∃ w : BitVec 32, w.toNat < 16 ∧ cc0_transform_2 Facts₀.k0_off1_inb Facts₀.numel1_S1 (tbl m) i = ![w.toNat, 0, 0] :=
      ⟨_, h _, rfl⟩
    refine ⟨fun a => ?_, Or.inl rfl⟩
    rw [e]
    fin_cases a <;> simp [S1x1x1024, S16x1x1024] <;> omega

end Cert.Kernel.Hand

end
-- ==== Proof.KernelIdeal.BodyRun.lean ====
/-
  The kernel body on any staging buffers. One grid point's body reads five input blocks — a sample's input rows,
  the selected subject's weight slab and bias row, the sample's mask column, the mask-token row — and stores the
  blended affine image over the WHOLE output block; it never reads the subject-id table it is handed. From the
  inputs' buffers at any contents and the output's at anything, the body runs to its return with the inputs as they
  were and the output holding the one stored value, the body's arithmetic as one pure term of the five loads.
-/
import proofs.«405792_j67817533604482_1_alg».proof.Proof.Gen.KernelIdeal.Launch
import proofs.«405792_j67817533604482_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- One staging buffer of the output window, through which the stored contents are stated (the choice of
    buffer does not matter: the pieces cover the block). -/
abbrev VO : View sig .tc .vmem S1x512x1024 .f32 := (Memref.whole cc0_stg5_0 : Memref sig .tc .vmem S1x512x1024 .f32).view

set_option maxHeartbeats 1000000 in
/-- The pieces the body's stores leave in the output's staging memref, WITH the proof that on whole staging memrefs —
    the five inputs' at their contents, the output's at anything — the body runs to the continuation holding the
    inputs as they were and the output's buffer with those pieces written. -/
noncomputable def kernelRun (c : Dev nD) (i : grid0.Coords) (arg1 : Memref sig .tc .smem S32 .i32) (harg1 : arg1.IsWhole)
    (arg2 : Memref sig .tc .vmem S1x512x512 .f32) (harg2 : arg2.IsWhole) (arg3 : Memref sig .tc .vmem S1x512x1024 .f32) (harg3 : arg3.IsWhole)
    (arg4 : Memref sig .tc .vmem S1x1x1024 .f32) (harg4 : arg4.IsWhole) (arg5 : Memref sig .tc .vmem S1x512x1 .f32) (harg5 : arg5.IsWhole)
    (arg6 : Memref sig .tc .vmem S1x1024 .f32) (harg6 : arg6.IsWhole) (arg7 : Memref sig .tc .vmem S1x512x1024 .f32) (harg7 : arg7.IsWhole)
    (x0 : Vec F S1x512x512 .f32) (x1 : Vec F S1x512x1024 .f32) (x2 : Vec F S1x1x1024 .f32) (x3 : Vec F S1x512x1 .f32) (x4 : Vec F S1x1024 .f32) :
    { L : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E
              (cc0__dispatch_kernel i arg1 harg1 arg2 harg2 arg3 harg3 arg4 harg4 arg5 harg5 arg6 harg6 arg7 harg7) K } := by
  refine ⟨?_, fun E K => ?run⟩
  case run =>
    simp only [cc0__dispatch_kernel_eq_skeleton]; unfold cc0__dispatch_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0
    obtain rfl := harg3.eq_unread hf1
    obtain rfl := harg4.eq_unread hf2
    obtain rfl := harg5.eq_unread hf3
    obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-- The body's one store is of the whole block: the pieces cover it. -/
theorem cover (c : Dev nD) (i : grid0.Coords) (arg1 : Memref sig .tc .smem S32 .i32) (harg1 : arg1.IsWhole)
    (arg2 : Memref sig .tc .vmem S1x512x512 .f32) (harg2 : arg2.IsWhole) (arg3 : Memref sig .tc .vmem S1x512x1024 .f32) (harg3 : arg3.IsWhole)
    (arg4 : Memref sig .tc .vmem S1x1x1024 .f32) (harg4 : arg4.IsWhole) (arg5 : Memref sig .tc .vmem S1x512x1 .f32) (harg5 : arg5.IsWhole)
    (arg6 : Memref sig .tc .vmem S1x1024 .f32) (harg6 : arg6.IsWhole) (arg7 : Memref sig .tc .vmem S1x512x1024 .f32) (harg7 : arg7.IsWhole)
    (x0 : Vec F S1x512x512 .f32) (x1 : Vec F S1x512x1024 .f32) (x2 : Vec F S1x1x1024 .f32) (x3 : Vec F S1x512x1 .f32) (x4 : Vec F S1x1024 .f32) (y : S1x512x1024.Idx) :
    ∃ pc ∈ (kernelRun c i arg1 harg1 arg2 harg2 arg3 harg3 arg4 harg4 arg5 harg5 arg6 harg6 arg7 harg7 x0 x1 x2 x3 x4).1, y ∈ pc.1.set :=
  View.cover_of_wholeMem (kernelRun c i arg1 harg1 arg2 harg2 arg3 harg3 arg4 harg4 arg5 harg5 arg6 harg6 arg7 harg7 x0 x1 x2 x3 x4).1 (by sl_whole_mem) y

/-- What the body leaves in the output's staging buffer: its pieces read back over junk. -/
def out (c : Dev nD) (i : grid0.Coords) (arg1 : Memref sig .tc .smem S32 .i32) (harg1 : arg1.IsWhole)
    (arg2 : Memref sig .tc .vmem S1x512x512 .f32) (harg2 : arg2.IsWhole) (arg3 : Memref sig .tc .vmem S1x512x1024 .f32) (harg3 : arg3.IsWhole)
    (arg4 : Memref sig .tc .vmem S1x1x1024 .f32) (harg4 : arg4.IsWhole) (arg5 : Memref sig .tc .vmem S1x512x1 .f32) (harg5 : arg5.IsWhole)
    (arg6 : Memref sig .tc .vmem S1x1024 .f32) (harg6 : arg6.IsWhole) (arg7 : Memref sig .tc .vmem S1x512x1024 .f32) (harg7 : arg7.IsWhole)
    (x0 : Vec F S1x512x512 .f32) (x1 : Vec F S1x512x1024 .f32) (x2 : Vec F S1x1x1024 .f32) (x3 : Vec F S1x512x1 .f32) (x4 : Vec F S1x1024 .f32) : Vec F S1x512x1024 .f32 :=
  VO.read (Elt F) (VO.writes (Elt F) VO.junk (kernelRun c i arg1 harg1 arg2 harg2 arg3 harg3 arg4 harg4 arg5 harg5 arg6 harg6 arg7 harg7 x0 x1 x2 x3 x4).1)

theorem hz3 : (![0, 0, 0] : Fin 3 → Nat) = fun _ => 0 := funext fun a => by fin_cases a <;> rfl
theorem hz2 : (![0, 0] : Fin 2 → Nat) = fun _ => 0 := funext fun a => by fin_cases a <;> rfl

/-- It is the body's arithmetic of the five loads: the one stored value, the whole block. -/
theorem out_eq (c : Dev nD) (i : grid0.Coords) (arg1 : Memref sig .tc .smem S32 .i32) (harg1 : arg1.IsWhole)
    (arg2 : Memref sig .tc .vmem S1x512x512 .f32) (harg2 : arg2.IsWhole) (arg3 : Memref sig .tc .vmem S1x512x1024 .f32) (harg3 : arg3.IsWhole)
    (arg4 : Memref sig .tc .vmem S1x1x1024 .f32) (harg4 : arg4.IsWhole) (arg5 : Memref sig .tc .vmem S1x512x1 .f32) (harg5 : arg5.IsWhole)
    (arg6 : Memref sig .tc .vmem S1x1024 .f32) (harg6 : arg6.IsWhole) (arg7 : Memref sig .tc .vmem S1x512x1024 .f32) (harg7 : arg7.IsWhole)
    (x0 : Vec F S1x512x512 .f32) (x1 : Vec F S1x512x1024 .f32) (x2 : Vec F S1x1x1024 .f32) (x3 : Vec F S1x512x1 .f32) (x4 : Vec F S1x1024 .f32) :
    out c i arg1 harg1 arg2 harg2 arg3 harg3 arg4 harg4 arg5 harg5 arg6 harg6 arg7 harg7 x0 x1 x2 x3 x4 = k0_pay1 x0 x1 x2 x3 x4 := by
  unfold out
  rw [View.read_writes_eq_canon _ _ _ (cover c i arg1 harg1 arg2 harg2 arg3 harg3 arg4 harg4 arg5 harg5 arg6 harg6 arg7 harg7 x0 x1 x2 x3 x4)]
  unfold kernelRun
  dsimp only
  sl_unfold_words
  rw [View.canon_unit_zero hz3]
  simp only [View.readAt_eq_ld, harg2.read_unread, harg3.read_unread, harg4.read_unread, harg5.read_unread, harg6.read_unread,
    View.ld_unit_zero (S := S1x512x512) hz3, View.ld_unit_zero (S := S1x512x1024) hz3, View.ld_unit_zero (S := S1x1x1024) hz3,
    View.ld_unit_zero (S := S1x512x1) hz3, View.ld_unit_zero (S := S1x1024) hz2]

end Cert.KernelIdeal.Hand

end
-- ==== Proof.KernelIdeal.Data.lean ====
/-
  The pipeline's proof data. The region is entered after the one host operation that lays the bias table out as
  [16, 1, 1024]; the subject-id table the index maps read is the launch memory's, and the pipeline runs at those
  contents under the side condition that every id names a row of the weight and bias tables. At every grid point
  each input's current staging buffer holds that window's block of its array (fetched there or not), the body
  leaves the inputs in place and the output's buffer at its arithmetic of the five blocks, and the invariant carried
  from point to point is the id table (whole) beside the scoped buffers the pipeline does not stage.
-/
import proofs.«405792_j67817533604482_1_alg».proof.Proof.KernelIdeal.BodyRun
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s unscoped buffers at launch, -/
abbrev V0 (c : Dev nD) : Valuation τ sig (Elt F) := fun b => m (c, b)
/-- and when the region is entered: the bias table has been laid out. -/
abbrev V1 (c : Dev nD) : Valuation τ sig (Elt F) := StableHlo.after hostOps0 (V0 m c)
/-- The same, read at a TensorCore reference. -/
abbrev V (c : Dev nD) (b : Ref sig .tc) : Buf (Elt F) ((c : Thread nD τ).loc b) := V1 m c (Proc.devRef .tc b)

/-- The one host operation before the region writes the laid-out bias table and nothing else. -/
abbrev hostOps0_W : List (Ref sig .tc) := [main_v0]
theorem hostOps0_fresh : (hostOps0 : List (HloOp τ sig (Elt F))).Forall fun op => op.fresh = ∅ := by
  simp only [List.Forall]; repeat' constructor
theorem hostOps0_writes : (hostOps0 : List (HloOp τ sig (Elt F))).Forall fun op => op.writes ⊆ (hostOps0_W.map (Proc.devRef (τ := τ) .tc)).toFinset := by
  simp only [List.Forall]; exact (by simp only [StableHlo.unary_writes, Finset.singleton_subset_iff, List.mem_toFinset]; exact List.mem_map_of_mem (by decide))
theorem V1_of (c : Dev nD) (r : Ref sig .tc) (h : r ∉ hostOps0_W) : V1 m c r = V0 m c r :=
  StableHlo.after_of_writes_sub hostOps0 _ hostOps0_writes h

/-! ## The subject-id table -/

/-- The table's contents when the region is entered (the program runs on ONE device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The pipeline's side condition of the table: at every grid point the selected weight slab and bias row lie
    inside their tables. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-! ## The windows' blocks and staging memrefs -/

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S1x512x512 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x512x1024 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1024 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x512x1 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x512x1024 .f32 := spec0_5.stage ((cfgM m hO).slots t 5)
abbrev hs5 (hO : Ok m) (t : Fin (cfgM m hO).N) : (ms5 m hO t).IsWhole := hstage0_5 (((cfgM m hO).slots t 5).cast nbuf0_5)

/-- The kernel body at point `t`, on what the pipeline calls it with. -/
abbrev bodyAt (hO : Ok m) (t : Fin (cfgM m hO).N) : Prog (TpuEff nD τ sig (Elt F) Λ₀ .tc) PUnit :=
  cc0__dispatch_kernel (grid0.coords t) (Memref.whole main_arg6) (Memref.isWhole_whole _) (ms0 m hO t) (hs0 m hO t) (ms1 m hO t) (hs1 m hO t)
    (ms2 m hO t) (hs2 m hO t) (ms3 m hO t) (hs3 m hO t) (ms4 m hO t) (hs4 m hO t) (ms5 m hO t) (hs5 m hO t)

/-- What the body leaves in the output's staging buffer at point `t`: its arithmetic of the point's five blocks. -/
def outAt (hO : Ok m) (c : Dev nD) (t : Fin (cfgM m hO).N) : Vec F S1x512x1024 .f32 :=
  out c (grid0.coords t) (Memref.whole main_arg6) (Memref.isWhole_whole _) (ms0 m hO t) (hs0 m hO t) (ms1 m hO t) (hs1 m hO t)
    (ms2 m hO t) (hs2 m hO t) (ms3 m hO t) (hs3 m hO t) (ms4 m hO t) (hs4 m hO t) (ms5 m hO t) (hs5 m hO t)
    (iblk m hO c 0 t) (iblk m hO c 1 t) (iblk m hO c 2 t) (iblk m hO c 3 t) (iblk m hO c 4 t)

theorem outAt_eq (hO : Ok m) (c : Dev nD) (t : Fin (cfgM m hO).N) :
    outAt m hO c t = k0_pay1 (iblk m hO c 0 t) (iblk m hO c 1 t) (iblk m hO c 2 t) (iblk m hO c 3 t) (iblk m hO c 4 t) :=
  out_eq c (grid0.coords t) (Memref.whole main_arg6) (Memref.isWhole_whole _) (ms0 m hO t) (hs0 m hO t) (ms1 m hO t) (hs1 m hO t)
    (ms2 m hO t) (hs2 m hO t) (ms3 m hO t) (hs3 m hO t) (ms4 m hO t) (hs4 m hO t) (ms5 m hO t) (hs5 m hO t)
    (iblk m hO c 0 t) (iblk m hO c 1 t) (iblk m hO c 2 t) (iblk m hO c 3 t) (iblk m hO c 4 t)

/-! ## The proof data -/

/-- The invariant between points: the id table whole at its contents, and the scoped buffers no window stages. -/
abbrev Φc (c : Dev nD) : sProp 𝕄 :=
  iprop(Pipeline.prefHeld pre0 c (fun _ => fullShare) (tbl m) ∗ Pipeline.scopedRest spec0 c)

/-- The proof data on core `c`: the arrays as the region finds them; after the body each input's buffer at its block
    and the output's at the body's arithmetic; the invariant above; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ _ := Φc m c
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = outAt m hO c t := by dsimp only [dats]; try rfl

/-- An input's current staging buffer holds its block at every point, fetched there or not: unfetched, the block
    index has not moved since the point that fetched it. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

/-- The body at any point: the inputs' memrefs hold their blocks, so the run applies; the invariant passes through
    untouched; the core owes nothing throughout. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5]
  unfold outAt
  unfold out
  iintro ⟨HΦ, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ (iblk m hO c 0 t) (iblk m hO c 1 t) (iblk m hO c 2 t) (iblk m hO c 3 t) (iblk m hO c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover c _ _ _ _ _ _ _ _ _ _ _ _ _ _ _ _ _ _ _ _)

/-- The library's body obligation, at every point. -/
theorem body_obligation (hO : Ok m) (c : Dev nD) : BodyObligation (dats (F := F) m hO 0 c) (defs₀ (F := F)) Variants.none () Set.univ := fun t => by
  rw [bigSep_W0, bigSep_W0]
  exact sound_body m hO c t

end Cert.KernelIdeal.Hand

end
-- ==== Proof.KernelIdeal.Launch.lean ====
/-
  The run of the whole program. @main is one host operation (the bias table laid out as [16, 1, 1024]), the kernel
  region, and eleven host operations that gather the subject embedding rows by the same id table and join them, as
  position 0, to the region's result. Between these three stretches the core holds every unscoped buffer at a known
  valuation: the launch contents; after the first operation; after the region, where only the result array has
  changed, to what the proof data computes; after the tail. The region takes the id table whole into its invariant
  and gives it back whole at its exit, so the tail reads it again. Every weakly fair execution terminates and every
  final memory holds each unscoped buffer at the last valuation.
-/
import proofs.«405792_j67817533604482_1_alg».proof.Proof.KernelIdeal.Data
import Idealize.ShloMosaic.Lib.Pipeline.Frame
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- The pipeline library's algebra is the whole user algebra. -/
abbrev EP : Emb (UR sig nD τ) (MT nD τ sig Unit (Elt F) ℕ (UR sig nD τ) ℕ) := emb₁

/-- The id table's admissible contents, for the one pipeline. -/
abbrev admF (hO : Ok m) : (p : Fin 1) → (pcfgs (F := F) p).Adm := fun _ => adm m hO

/-- What rides beside the buffers: the core owes nothing. -/
abbrev Rst (c : Dev nD) : sProp 𝕄 := iprop(∃ W, owes (c : Thread nD τ) (0 : CellTallies nD τ sig Unit) W)

/-! ## The valuations after the region and after the tail -/

/-- Core `c`'s unscoped buffers after the region: the pipeline's arrays at what the proof data computes (the inputs
    unchanged, the result written back block by block), every other buffer as the region found it. -/
def V2 (hO : Ok m) (c : Dev nD) : Valuation τ sig (Elt F) :=
  Pipeline.withArrays spec0 c (V1 m c) (fun w => (dats m hO 0 c).arrAt w (cfgM m hO).N)
/-- and after the eleven operations of the tail. -/
abbrev V3 (hO : Ok m) (c : Dev nD) : Valuation τ sig (Elt F) := StableHlo.after hostOps1 (V2 m hO c)

theorem V2_arr (hO : Ok m) (c : Dev nD) (w : Fin (cfgM m hO).W) :
    V2 m hO c (Proc.devRef .tc (Pipeline.arrRef spec0 w)) = (dats m hO 0 c).arrAt w (cfgM m hO).N :=
  Pipeline.withArrays_arr spec0 (launch0 (F := F)).win.arr_inj c (V1 m c) _ w
theorem V2_of_ne (hO : Ok m) (c : Dev nD) (b : Ref sig .tc) (hb : ∀ w, Pipeline.arrRef spec0 w ≠ b) :
    V2 m hO c (Proc.devRef .tc b) = V1 m c (Proc.devRef .tc b) :=
  Pipeline.withArrays_of_ne spec0 c (V1 m c) _ b hb

theorem hostOps1_fresh : (hostOps1 : List (HloOp τ sig (Elt F))).Forall fun op => op.fresh = ∅ := by
  simp only [List.Forall]; repeat' constructor

/-! ## The segments -/

/-- The first host stretch, over the unscoped buffers from the launch contents. -/
def seg0 : HostSeg (Ix := Unit) (Name := ℕ) (U := UR sig nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Rst

/-- The tail, over the unscoped buffers from what the region left. -/
def seg2 (hO : Ok m) : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m hO) Rst

set_option backward.isDefEq.respectTransparency.types false in
/-- THE REGION: entered from every unscoped buffer at the valuation the first stretch left — the windows' arrays into
    the pipeline, the id table into the invariant, everything else bypassing —, left with every unscoped buffer at the
    valuation updated at the arrays. -/
def reg0 (hO : Ok m) : RegionSeg (pcfgs (F := F)) (admF m hO) (dats m hO) () defs₀ 𝒱₀ L lv 0 where
  win := (launch0 (F := F)).win.to₀
  block_pos := (launch0 (F := F)).block_pos
  stage_whole := (launch0 (F := F)).stage_whole
  K := PEmpty
  osem := fun k => k.elim
  ho := Pipeline.OwnSemFacts.none _
  hbody c := (body_obligation m hO c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (V2 m hO c) ∗ Rst c)
  X c := iprop(emp)
  Y c := Pipeline.prefHeld pre0 c (fun _ => fullShare) (tbl m)
  Z c := Pipeline.unscopedRestP pre0 spec0 c (V m c)
  hentry c := by
    rw [show StableHlo.held (c : Thread nD τ) (Pipeline.ucRefs τ sig) (V1 m c) = unscopedBufs c (V m c) from (Pipeline.unscopedBufs_held c _).symm]
    have hsplit := (Pipeline.arrays_of_unscopedBufs (pcfgs (F := F)) (admF m hO) (dats m hO) (launch0 (F := F)).win (launch0 (F := F)).arr_whole c
      ((dats m hO 0 c).share_full fun _ => rfl) (V m c) (A_eq m hO c)).trans
        (sep_mono .rfl (Entails.of_eq (Pipeline.unscopedRest_split (launch0 (F := F)).pre c (V m c))))
    rw [show (fun k => V m c (pre0.ref k)) = tbl m from funext fun k => V_pre m c k] at hsplit
    iintro ⟨⟨Hub, HO⟩, -, -⟩
    ihave H := hsplit $$ Hub
    icases H with ⟨Ha, Hp, Hr⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr [Hr]; · iempintro
    iexact Hr
  hin c := by
    rw [show (dats m hO 0 c).Φ 0 = Φc m c from rfl]
    iintro ⟨-, Hp, Hr⟩
    isplitl [Hp] <;> iassumption
  hout c := by
    rw [Pipeline.ownSems0_none, show (dats m hO 0 c).Φ (Fin.last (cfgM m hO).N) = Φc m c from rfl]
    iintro ⟨Hp, Hr⟩
    isplitl [Hp]; · iexact Hp
    isplitr; · iempintro
    iexact Hr
  hexit c := by
    rw [show StableHlo.held (c : Thread nD τ) (Pipeline.ucRefs τ sig) (V2 m hO c) = unscopedBufs c (fun b => V2 m hO c (Proc.devRef .tc b))
      from (Pipeline.unscopedBufs_held c _).symm]
    have hjoin := Pipeline.unscopedBufs_of_arrays (pcfgs (F := F)) (admF m hO) (p := 0) (launch0 (F := F)).win (launch0 (F := F)).arr_whole c (dats m hO)
      ((dats m hO 0 c).share_full fun _ => rfl) (V m c) (fun b => V2 m hO c (Proc.devRef .tc b))
      (fun w => (dats m hO 0 c).arrAt w (cfgM m hO).N) (fun w => (V2_arr m hO c w).symm)
      (fun b hb => V2_of_ne m hO c b fun w e => hb (Finset.mem_image.mpr ⟨w, Finset.mem_univ _, e⟩))
    rw [Pipeline.unscopedRest_split (launch0 (F := F)).pre c (V m c), show (fun k => V m c (pre0.ref k)) = tbl m from funext fun k => V_pre m c k] at hjoin
    iintro ⟨Ha, HO, Hp, Hr⟩
    imodintro
    isplitr [HO]
    · iapply hjoin
      isplitl [Ha]; · iexact Ha
      isplitl [Hp] <;> iassumption
    · unfold Pipeline.Dat.owesAt Pipeline.owesWithin
      icases HO with ⟨%W, -, HO⟩; iexists W; iexact HO

/-- @main as the list of the three. -/
abbrev segs (hO : Ok m) : List (Seg (pcfgs (F := F)) (admF m hO) (dats m hO) () defs₀ 𝒱₀ L lv) :=
  [.host (seg0 m), .region (reg0 m hO), .host (seg2 m hO)]

/-- What a final memory holds: every unscoped buffer of every core at the last valuation. -/
def QF (hO : Ok m) : PUnit × MemSt nD τ sig (Elt F) → Prop := fun r =>
  ∀ c : Dev nD, ∀ b ∈ Pipeline.ucRefs τ sig, r.2.mem ((c : Thread nD τ).1, b) = V3 m hO c b

set_option backward.isDefEq.respectTransparency.types false in
/-- At the compiled mesh, for any values, from any memory with zero counters whose id table passes the pipeline's
    side condition: every weakly fair execution of @main on the TensorCores terminates, nothing faulting, and every
    final memory holds every unscoped buffer at the last valuation. -/
theorem run_main (hO : Ok m) : θ_run defs (onTc (τ := τ) (main (F := F))) ⟨m, fun _ => 0, ρ⟩ (QF m hO) :=
  Pipeline.θ_run_regions_kit (pcfgs (F := F)) (admF m hO) (dats m hO) () (cellOf_inj (admF m hO)) EP defs₀ 𝒱₀ L lv m ρ main (segs m hO)
    (fun c Q => by rw [main_segs (admF m hO) (dats m hO) () 𝒱₀ L lv (seg0 m) (seg2 m hO) (reg0 m hO) rfl rfl c])
    (by simp only [Seg.pipes_host, Seg.pipes_region, Seg.pipes_nil]; decide) (O₀ := 0) (hL := fun _ _ => rfl) (G := fun _ => iprop(emp))
    (u₀ := initOf (Pipeline.cells (Pipeline.pin pcfgs (admF m hO)) (cellOf_inj (admF m hO))) (Pipeline.launchToks (Pipeline.pin pcfgs (admF m hO)) (cellOf_inj (admF m hO))))
    (hu₀ := by
      iintro Hu; imodintro
      isplitl [Hu]
      · iapply (show (ownU _ : sProp 𝕄) ⊢ BI.own (emb₁ (initOf (Pipeline.cells (Pipeline.pin pcfgs (admF m hO)) (cellOf_inj (admF m hO))) (Pipeline.launchToks (Pipeline.pin pcfgs (admF m hO)) (cellOf_inj (admF m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V3 m hO c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = V3 m hO c b)
    (hfin := fun c s' => by
      unfold StableHlo.held
      iintro ⟨Hh, HSI⟩
      ihave Hr := (pointsTo_read_all (Pipeline.ucRefs τ sig) (fun b => ((c : Thread nD τ).1, b)) (V3 m hO c) s') $$ [Hh HSI]
      · isplitl [Hh] <;> iassumption
      icases Hr with ⟨%h, HSI⟩
      imodintro
      isplitr; · ipureintro; exact h
      iexact HSI)
    (hQ := fun _ h => h)

end Cert.KernelIdeal.Hand

end
-- ==== Proof.KernelIdeal.Frame.lean ====
/-
  The frame. No stretch of @main writes an argument: the two host stretches write only their own results, and
  the region changes only its result array (an input window's array ends as the region found it). So at the last
  valuation each argument is the launch memory's, which is what every final memory holds. The pipeline's side
  condition on the id table holds as soon as every id, read unsigned, is below the sixteen rows of the weight and
  bias tables: the selected slab and row are then inside their arrays.
-/
import proofs.«405792_j67817533604482_1_alg».proof.Proof.KernelIdeal.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the tail writes -/

abbrev hostOps1_W : List (Ref sig .tc) := [main_c, main_v2, main_v3, main_c_0, main_v4, main_v5, main_v6, main_v7, main_v8, main_v9, main_v10]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_⟩ <;>
    (simp only [StableHlo.nullary_writes, StableHlo.unary_writes, StableHlo.binary_writes, StableHlo.ternary_writes,
      Finset.singleton_subset_iff, List.mem_toFinset]; exact List.mem_map_of_mem (by decide))
theorem V3_of (hO : Ok m) (c : Dev nD) (r : Ref sig .tc) (h : r ∉ hostOps1_W) : V3 m hO c r = V2 m hO c r :=
  StableHlo.after_of_writes_sub hostOps1 _ hostOps1_writes h

/-! ## The arguments at the last valuation -/

/-- An input window's array ends as launched: the region leaves it as it found it, and the first stretch did not write it. -/
theorem V3_in (hO : Ok m) (c : Dev nD) (w : Fin (cfgM m hO).W) (hw : ((cfgM m hO).win w).isOut = false) (r : Ref sig .tc)
    (hr : Pipeline.arrRef spec0 w = r) (h1 : r ∉ hostOps1_W) (h0 : r ∉ hostOps0_W) :
    V3 m hO c r = m ((c.tc : Thread nD τ).loc r) := by
  subst hr
  exact (V3_of m hO c _ h1).trans ((V2_arr m hO c w).trans (((dats m hO 0 c).arrAt_in w hw _).trans ((A_eq m hO c w).trans (V1_of m c _ h0))))

/-- An argument no window stages bypasses the region. -/
theorem V3_by (hO : Ok m) (c : Dev nD) (r : Ref sig .tc) (hr : ∀ w, Pipeline.arrRef spec0 w ≠ r) (h1 : r ∉ hostOps1_W) (h0 : r ∉ hostOps0_W) :
    V3 m hO c r = m ((c.tc : Thread nD τ).loc r) :=
  (V3_of m hO c r h1).trans ((V2_of_ne m hO c r hr).trans (V1_of m c r h0))

theorem mem_uc (b : Ref sig .tc) (hb : (Proc.devRef (τ := τ) .tc b).isScoped = false) : Proc.devRef .tc b ∈ Pipeline.ucRefs τ sig :=
  Finset.mem_filter.mpr ⟨StableHlo.devRef_mem_tcRefs b, by rw [hb]; exact Bool.false_ne_true⟩

/-- What a final memory of the run holds at the arguments: the launch contents. -/
theorem kept (hO : Ok m) (r : PUnit × MemSt nD τ sig (Elt F)) (h : QF m hO r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
    ⟨(h c _ (mem_uc main_arg0 rfl)).trans (V3_in m hO c 0 rfl main_arg0 rfl (by decide) (by decide)),
     (h c _ (mem_uc main_arg1 rfl)).trans (V3_in m hO c 3 rfl main_arg1 rfl (by decide) (by decide)),
     (h c _ (mem_uc main_arg2 rfl)).trans (V3_in m hO c 1 rfl main_arg2 rfl (by decide) (by decide)),
     (h c _ (mem_uc main_arg3 rfl)).trans (V3_by m hO c main_arg3 (by decide) (by decide) (by decide)),
     (h c _ (mem_uc main_arg4 rfl)).trans (V3_by m hO c main_arg4 (by decide) (by decide) (by decide)),
     (h c _ (mem_uc main_arg5 rfl)).trans (V3_in m hO c 4 rfl main_arg5 rfl (by decide) (by decide)),
     (h c _ (mem_uc main_arg6 rfl)).trans (V3_by m hO c main_arg6 (by decide) (by decide) (by decide))⟩

/-- THE FRAME, at any float instance, under the pipeline's side condition on the id table. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => kept m hO r h c) (run_main m ρ hO)

/-! ## The side condition from the ids' range -/

/-- The id table is the launch memory's (the first stretch does not write it). -/
theorem tbl_eq : tbl m 0 = m (((0 : Dev nD).tc : Thread nD τ).loc main_arg6) := V1_of m 0 main_arg6 (by decide)

/-- Every id below sixteen, read unsigned: the selected weight slab and bias row are inside their tables. -/
theorem ok_of_lt (h : ∀ x : S32.Idx, (tbl m 0 x).toNat < 16) : Ok m := by
  refine ⟨fun i => ?_, fun i => ?_⟩
  · obtain ⟨w, hw, e⟩ : ∃ w : BitVec 32, w.toNat < 16 ∧ cc0_transform_1 Facts₀.k0_off1_inb Facts₀.numel1_S1 (tbl m) i = ![w.toNat, 0, 0] :=
      ⟨_, h _, rfl⟩
    refine ⟨fun a => ?_, Or.inl rfl⟩
    rw [e]
    fin_cases a <;> simp [S1x512x1024, S16x512x1024] <;> omega
  · obtain ⟨w, hw, e⟩ : ∃ w : BitVec 32, w.toNat < 16 ∧ cc0_transform_2 Facts₀.k0_off1_inb Facts₀.numel1_S1 (tbl m) i = ![w.toNat, 0, 0] :=
      ⟨_, h _, rfl⟩
    refine ⟨fun a => ?_, Or.inl rfl⟩
    rw [e]
    fin_cases a <;> simp [S1x1x1024, S16x1x1024] <;> omega

end Cert.KernelIdeal.Hand

end
-- ==== Proof.KernelPayload.lean ====
/-
  The kernel body's one stored value, read at an index, at the ideal values.

  The body loads one sample's input rows `x : [1, 512, 512]`, the sample's weight matrix `w : [1, 512, 1024]`, its bias
  row `b : [1, 1, 1024]`, the mask column `μ : [1, 512, 1]` and the mask token `t : [1, 1024]`, and stores

      (x · w + b) · (1 − μ) + t · μ ,

  the bias and the token repeated down the rows, the mask column repeated across the features. Read at position `s` and
  feature `d` that is

      (∑ₖ x[0, s, k] · w[0, k, d] + b[0, 0, d]) · (1 − μ[0, s, 0]) + t[0, d] · μ[0, s, 0] .

  At the ideal values the rounding of the two matrix operands to bf16 is the identity and the matrix product into a zero
  accumulator is the plain sum over the contracted axis; every other step is either pointwise or only moves an index:
  a unit axis dropped or added, one row repeated over 512 rows, one column repeated over 1024 columns. The float
  literal `1.0` stays its word.
-/
import proofs.«405792_j67817533604482_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelPayload

open Idealize.ShloMosaic Idealize.ShloMosaic.ValueIdx Cert.KernelIdeal
open scoped BigOperators

/-! ## Two index moves the library's list does not carry -/

section Layout
variable {α : Type}

/-- A `[1, 1, b]` array cast to `[b]` reads, at `d`, the operand at `(0, 0, d)`: both have row-major position `d`. -/
theorem shapeCast_11b_b_apply {b : ℕ} (x : (⟨3, ![1, 1, b]⟩ : Shape).Idx → α)
    (h : (⟨3, ![1, 1, b]⟩ : Shape).ShapeCasts ⟨1, ![b]⟩) (d : Fin b) :
    shapeCast ⟨1, ![b]⟩ x h (ix1 d) = x (ix3 (0 : Fin 1) (0 : Fin 1) d) :=
  shapeCast_apply x h _ _ (by
    rw [Shape.rowMajor_val_three, Shape.rowMajor_val_one]
    show (0 * 1 + 0) * b + d.val = d.val
    simp only [Nat.zero_mul, Nat.zero_add])

/-- An `[a, 1]` column broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The matrix product read as a sum

The dimension numbers contract the left operand's axis 1 with the right operand's axis 0 and carry no batch axis: at
result index `(s, d)` and contraction position `k` the left operand is read at `(s, k)` and the right at `(k, d)`. -/

theorem lhs_mm_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_mm_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_mm_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_mm_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The body's matrix product into the zero accumulator, read at `(s, d)`: the sum over the 512 contraction positions
    of the left operand's row `s` times the right operand's column `d`. -/
theorem body_matmul_apply (A : FVec Ideal S512x512 .bf16) (B : FVec Ideal S512x1024 .bf16) (s : Fin 512) (d : Fin 1024) :
    matmul dot_S512x512_S512x1024_S512x1024_1_0_0_1_n_n none A B (constant (F := Ideal) S512x1024 .f32 0x00000000#32) (ix2 s d)
      = ∑ k : Fin 512, A (ix2 s k) * B (ix2 k d) := by
  refine (Ideal.matmul_constant_zero_apply dot_S512x512_S512x1024_S512x1024_1_0_0_1_n_n none A B (ix2 s d)).trans ?_
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 s d) ((contrEquiv1 dot_S512x512_S512x1024_S512x1024_1_0_0_1_n_n 512 rfl rfl).symm k) = ix2 s k := funext fun a => Fin.ext (by
    match a with
    | ⟨0, _⟩ => exact lhs_mm_0 _ _
    | ⟨1, _⟩ => exact (lhs_mm_1 _ _).trans hk)
  have er : dot_S512x512_S512x1024_S512x1024_1_0_0_1_n_n.rhsIdx (ix2 s d) ((contrEquiv1 dot_S512x512_S512x1024_S512x1024_1_0_0_1_n_n 512 rfl rfl).symm k) = ix2 k d := funext fun a => Fin.ext (by
    match a with
    | ⟨0, _⟩ => exact (rhs_mm_0 _ _).trans hk
    | ⟨1, _⟩ => exact rhs_mm_1 _ _)
  rw [el, er]

/-! ## The stored value at `(0, s, d)` -/

/-- The body's stored value at `(0, s, d)`: the sample's affine image at position `s`, feature `d`, blended with the
    mask token by the position's mask value. -/
theorem pay_apply (v0 : Vec Ideal S1x512x512 .f32) (v3 : Vec Ideal S1x512x1024 .f32) (v6 : Vec Ideal S1x1x1024 .f32)
    (v8 : Vec Ideal S1x512x1 .f32) (v10 : Vec Ideal S1x1024 .f32) (s : Fin 512) (d : Fin 1024) :
    Cert.KernelIdeal.Gen.k0_pay1 (F := Ideal) v0 v3 v6 v8 v10 (ix3 (0 : Fin 1) s d)
      = ((∑ k : Fin 512, v0 (ix3 (0 : Fin 1) s k) * v3 (ix3 (0 : Fin 1) k d)) + v6 (ix3 (0 : Fin 1) (0 : Fin 1) d))
          * (Ideal.ofBits .f32 0x3F800000#32 - v8 (ix3 (0 : Fin 1) s (0 : Fin 1)))
        + v10 (ix2 (0 : Fin 1) d) * v8 (ix3 (0 : Fin 1) s (0 : Fin 1)) := by
  unfold Gen.k0_pay1
  -- the unit axis put back in front of the stored `[512, 1024]` value
  refine (shapeCast_ab_1ab_apply _ _ (0 : Fin 1) s d).trans ?_
  -- the pointwise steps read at `(s, d)`; each index move named by its lemma
  simp only [addf_apply, mulf_apply, subf_apply, truncf_apply, broadcast_apply, body_matmul_apply,
    broadcastTo_1b_ab_apply, broadcastTo_a1_ab_apply, shapeCast_a_1a_apply, shapeCast_11b_b_apply,
    shapeCast_1ab_ab_apply, Ideal.ofBits_def]

end Cert.KernelPayload

end
-- ==== Proof.Spec.lean ====
/-
  What both programs compute for one batch sample, as one function of the argument arrays over the extended
  reals. Sample `bb` picks row `row bb` of the per-subject weights `W` and biases `b`; position `s`, feature `d` of
  the result is the affine image of the sample's input row, blended with the mask token by the position's mask
  value `μ = mask[bb, s, 0]`:

      (∑ₖ x[bb, s, k] · W[row bb, k, d] + b[row bb, d]) · (1 − μ) + mtok[0, d] · μ .

  The selection `row` is a parameter: each program reads it off the subject ids in its own way, and each is shown
  to read the same row when every id lies in `[0, 16)`.
-/
import Idealize.ShloMosaic.PureOps.Ideal
import Idealize.ShloMosaic.Lib.ValueIdx

noncomputable section

namespace Cert.DispatchSpec

open Idealize.ShloMosaic Idealize.ShloMosaic.ValueIdx
open scoped BigOperators

/-- The blended affine image at sample `bb`, position `s`, feature `d`. The float literal `1.0` is kept as its word:
    both programs carry the same word, so it is never evaluated. -/
def blendAt (x : FVec Ideal ⟨3, ![32, 512, 512]⟩ .f32) (mask : FVec Ideal ⟨3, ![32, 512, 1]⟩ .f32)
    (W : FVec Ideal ⟨3, ![16, 512, 1024]⟩ .f32) (b : FVec Ideal ⟨2, ![16, 1024]⟩ .f32)
    (mtok : FVec Ideal ⟨2, ![1, 1024]⟩ .f32) (row : Fin 32 → Fin 16)
    (bb : Fin 32) (s : Fin 512) (d : Fin 1024) : EReal :=
  ((∑ k : Fin 512, x (ix3 bb s k) * W (ix3 (row bb) k d)) + b (ix2 (row bb) d))
      * (Ideal.ofBits .f32 0x3F800000#32 - mask (ix3 bb s (0 : Fin 1)))
    + mtok (ix2 (0 : Fin 1) d) * mask (ix3 bb s (0 : Fin 1))

/-- The whole `[32, 512, 1024]` array of blended images. -/
def blend (x : FVec Ideal ⟨3, ![32, 512, 512]⟩ .f32) (mask : FVec Ideal ⟨3, ![32, 512, 1]⟩ .f32)
    (W : FVec Ideal ⟨3, ![16, 512, 1024]⟩ .f32) (b : FVec Ideal ⟨2, ![16, 1024]⟩ .f32)
    (mtok : FVec Ideal ⟨2, ![1, 1024]⟩ .f32) (row : Fin 32 → Fin 16) :
    FVec Ideal ⟨3, ![32, 512, 1024]⟩ .f32 :=
  fun i => blendAt x mask W b mtok row (i 0) (i 1) (i 2)

theorem blend_apply (x : FVec Ideal ⟨3, ![32, 512, 512]⟩ .f32) (mask : FVec Ideal ⟨3, ![32, 512, 1]⟩ .f32)
    (W : FVec Ideal ⟨3, ![16, 512, 1024]⟩ .f32) (b : FVec Ideal ⟨2, ![16, 1024]⟩ .f32)
    (mtok : FVec Ideal ⟨2, ![1, 1024]⟩ .f32) (row : Fin 32 → Fin 16) (bb : Fin 32) (s : Fin 512) (d : Fin 1024) :
    blend x mask W b mtok row (ix3 bb s d) = blendAt x mask W b mtok row bb s d := rfl

end Cert.DispatchSpec

end
-- ==== Proof.KernelIdeal.Value.lean ====
/-
  From blocks to the array, at the ideal values. The region's grid is one axis of 32 points, one per batch sample. At
  point `t` the pipeline hands the body sample `t`'s rows of the input and of the mask, the weight slab and the bias
  row of the subject the id table names for sample `t`, and the whole mask-token row; the body leaves its arithmetic
  of those five blocks in the output's buffer, and that buffer is written back over sample `t`'s rows of the result
  array. The 32 blocks tile the result array, so after the region it holds at every `(bb, s, d)` the blended affine
  image `Cert.DispatchSpec.blend` of the argument arrays,

      (∑ₖ x[bb, s, k] · W[row bb, k, d] + b[row bb, d]) · (1 − mask[bb, s, 0]) + mtok[0, d] · mask[bb, s, 0] ,

  where `row bb` is the table's word for sample `bb` read as a row number. Every fact about the windows' index maps
  is stated with the table's contents a variable and instantiated at the launch memory's table last; the bias window's
  array is the `[16, 1, 1024]` layout the one host operation before the region makes of `b`, read back at `(r, 0, d)`.
-/
import proofs.«405792_j67817533604482_1_alg».proof.Proof.KernelIdeal.Data
import proofs.«405792_j67817533604482_1_alg».proof.Proof.KernelPayload
import proofs.«405792_j67817533604482_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The grid's points and the static index maps -/

/-- The grid's one axis has 32 points; a point as a sample number. -/
def pt (t : Fin grid0.N) : Fin 32 := ⟨t.val, N_0 ▸ t.isLt⟩

/-- The index maps that read no table, over the grid: windows 0, 3 and 5 are at block `(t, 0, 0)` at point `t`,
    window 4 at block `(0, 0)` everywhere. -/
theorem idx0 : ∀ t : Fin grid0.N, cc0_transform_0 (grid0.coords t) = ![t.val, 0, 0] := by decide +kernel
theorem idx3 : ∀ t : Fin grid0.N, cc0_transform_3 (grid0.coords t) = ![t.val, 0, 0] := by decide +kernel
theorem idx4 : ∀ t : Fin grid0.N, cc0_transform_4 (grid0.coords t) = ![0, 0] := by decide +kernel
theorem idx5 : ∀ t : Fin grid0.N, cc0_transform_5 (grid0.coords t) = ![t.val, 0, 0] := by decide +kernel

/-! ## The input windows' blocks, read through any contents of their arrays

A block's coordinate on an axis is the block index times the block's extent plus the coordinate inside the block. -/

/-- Window 0's block at point `t` is sample `t`'s rows of the input. -/
theorem read0 (a : (pcfg0 (F := Ideal)).Adm) (X : FVec Ideal S32x512x512 .f32) (t : Fin grid0.N) (s k : Fin 512) :
    (((cfg0 a).win 0).blk t).view.read (Elt Ideal) X (ix3 (0 : Fin 1) s k) = X (ix3 (pt t) s k) := by
  show X _ = X _
  refine congrArg X ?_
  funext ax; apply Fin.ext
  have e := idx0 t
  match ax with
  | ⟨0, _⟩ => show cc0_transform_0 (grid0.coords t) 0 * 1 + 1 * 0 = t.val; rw [e]; show t.val * 1 + 1 * 0 = t.val; omega
  | ⟨1, _⟩ => show cc0_transform_0 (grid0.coords t) 1 * 512 + 1 * s.val = s.val; rw [e]; show 0 * 512 + 1 * s.val = s.val; omega
  | ⟨2, _⟩ => show cc0_transform_0 (grid0.coords t) 2 * 512 + 1 * k.val = k.val; rw [e]; show 0 * 512 + 1 * k.val = k.val; omega

/-- Window 3's block at point `t` is sample `t`'s mask column. -/
theorem read3 (a : (pcfg0 (F := Ideal)).Adm) (X : FVec Ideal S32x512x1 .f32) (t : Fin grid0.N) (s : Fin 512) :
    (((cfg0 a).win 3).blk t).view.read (Elt Ideal) X (ix3 (0 : Fin 1) s (0 : Fin 1)) = X (ix3 (pt t) s (0 : Fin 1)) := by
  show X _ = X _
  refine congrArg X ?_
  funext ax; apply Fin.ext
  have e := idx3 t
  match ax with
  | ⟨0, _⟩ => show cc0_transform_3 (grid0.coords t) 0 * 1 + 1 * 0 = t.val; rw [e]; show t.val * 1 + 1 * 0 = t.val; omega
  | ⟨1, _⟩ => show cc0_transform_3 (grid0.coords t) 1 * 512 + 1 * s.val = s.val; rw [e]; show 0 * 512 + 1 * s.val = s.val; omega
  | ⟨2, _⟩ => show cc0_transform_3 (grid0.coords t) 2 * 1 + 1 * 0 = 0; rw [e]; rfl

/-- Window 4's block is the whole mask-token row at every point. -/
theorem read4 (a : (pcfg0 (F := Ideal)).Adm) (X : FVec Ideal S1x1024 .f32) (t : Fin grid0.N) (d : Fin 1024) :
    (((cfg0 a).win 4).blk t).view.read (Elt Ideal) X (ix2 (0 : Fin 1) d) = X (ix2 (0 : Fin 1) d) := by
  show X _ = X _
  refine congrArg X ?_
  funext ax; apply Fin.ext
  have e := idx4 t
  match ax with
  | ⟨0, _⟩ => show cc0_transform_4 (grid0.coords t) 0 * 1 + 1 * 0 = 0; rw [e]; rfl
  | ⟨1, _⟩ => show cc0_transform_4 (grid0.coords t) 1 * 1024 + 1 * d.val = d.val; rw [e]; show 0 * 1024 + 1 * d.val = d.val; omega

/-! ## The two windows whose block index is the table's word -/

/-- The offset the index maps load the table at, at point `t`, is `t`. -/
theorem off_at : ∀ t : Fin grid0.N, (Scalar.indexCast (BitVec.ofNat 32 ((grid0.coords t) 0).val)).toNat = t.val := by decide +kernel

/-- The table word the index maps of windows 1 and 2 read at point `t`: the subject id of sample `t`. -/
theorem word_at (pf : pre0.Contents (Elt Ideal)) (t : Fin grid0.N) :
    pf.at 0 (Rect.unit (s := S32) ![(Scalar.indexCast (BitVec.ofNat 32 ((grid0.coords t) 0).val)).toNat] S1.size (k0_off1_inb (grid0.coords t))) numel1_S1
      = pf 0 (ix1 (pt t)) := by
  show pf 0 _ = pf 0 _
  refine congrArg (pf 0) ?_
  funext ax; apply Fin.ext
  match ax with
  | ⟨0, _⟩ => show (Scalar.indexCast (BitVec.ofNat 32 ((grid0.coords t) 0).val)).toNat + 1 * 0 = t.val; rw [off_at t]; omega

theorem idx1 (pf : pre0.Contents (Elt Ideal)) (t : Fin grid0.N) :
    cc0_transform_1 k0_off1_inb numel1_S1 pf (grid0.coords t) = ![(pf 0 (ix1 (pt t))).toNat, 0, 0] := by
  show ![(pf.at 0 (Rect.unit (s := S32) ![(Scalar.indexCast (BitVec.ofNat 32 ((grid0.coords t) 0).val)).toNat] S1.size (k0_off1_inb (grid0.coords t))) numel1_S1).toNat, 0, 0] = _
  rw [word_at]
theorem idx2 (pf : pre0.Contents (Elt Ideal)) (t : Fin grid0.N) :
    cc0_transform_2 k0_off1_inb numel1_S1 pf (grid0.coords t) = ![(pf 0 (ix1 (pt t))).toNat, 0, 0] := by
  show ![(pf.at 0 (Rect.unit (s := S32) ![(Scalar.indexCast (BitVec.ofNat 32 ((grid0.coords t) 0).val)).toNat] S1.size (k0_off1_inb (grid0.coords t))) numel1_S1).toNat, 0, 0] = _
  rw [word_at]

/-- Window 1's block at point `t` is the weight slab of the subject the table names for sample `t`. -/
theorem read1 (a : (pcfg0 (F := Ideal)).Adm) (pf : pre0.Contents (Elt Ideal)) (hpf : a.1 = pf) (X : FVec Ideal S16x512x1024 .f32) (t : Fin grid0.N) (r : Fin 16)
    (hr : (pf 0 (ix1 (pt t))).toNat = r.val) (k : Fin 512) (d : Fin 1024) :
    (((cfg0 a).win 1).blk t).view.read (Elt Ideal) X (ix3 (0 : Fin 1) k d) = X (ix3 r k d) := by
  subst hpf
  show X _ = X _
  refine congrArg X ?_
  funext ax; apply Fin.ext
  have e := idx1 a.1 t
  match ax with
  | ⟨0, _⟩ => show cc0_transform_1 k0_off1_inb numel1_S1 a.1 (grid0.coords t) 0 * 1 + 1 * 0 = r.val; rw [e]; show (a.1 0 (ix1 (pt t))).toNat * 1 + 1 * 0 = r.val; omega
  | ⟨1, _⟩ => show cc0_transform_1 k0_off1_inb numel1_S1 a.1 (grid0.coords t) 1 * 512 + 1 * k.val = k.val; rw [e]; show 0 * 512 + 1 * k.val = k.val; omega
  | ⟨2, _⟩ => show cc0_transform_1 k0_off1_inb numel1_S1 a.1 (grid0.coords t) 2 * 1024 + 1 * d.val = d.val; rw [e]; show 0 * 1024 + 1 * d.val = d.val; omega

/-- Window 2's block at point `t` is that subject's row of the laid-out bias table. -/
theorem read2 (a : (pcfg0 (F := Ideal)).Adm) (pf : pre0.Contents (Elt Ideal)) (hpf : a.1 = pf) (X : FVec Ideal S16x1x1024 .f32) (t : Fin grid0.N) (r : Fin 16)
    (hr : (pf 0 (ix1 (pt t))).toNat = r.val) (d : Fin 1024) :
    (((cfg0 a).win 2).blk t).view.read (Elt Ideal) X (ix3 (0 : Fin 1) (0 : Fin 1) d) = X (ix3 r (0 : Fin 1) d) := by
  subst hpf
  show X _ = X _
  refine congrArg X ?_
  funext ax; apply Fin.ext
  have e := idx2 a.1 t
  match ax with
  | ⟨0, _⟩ => show cc0_transform_2 k0_off1_inb numel1_S1 a.1 (grid0.coords t) 0 * 1 + 1 * 0 = r.val; rw [e]; show (a.1 0 (ix1 (pt t))).toNat * 1 + 1 * 0 = r.val; omega
  | ⟨1, _⟩ => show cc0_transform_2 k0_off1_inb numel1_S1 a.1 (grid0.coords t) 1 * 1 + 1 * 0 = 0; rw [e]; rfl
  | ⟨2, _⟩ => show cc0_transform_2 k0_off1_inb numel1_S1 a.1 (grid0.coords t) 2 * 1024 + 1 * d.val = d.val; rw [e]; show 0 * 1024 + 1 * d.val = d.val; omega

/-! ## The arrays as the region finds them -/

variable (m : (ℓ : Loc nD τ sig) → Buf (Elt Ideal) ℓ)

/-- The laid-out bias table: the one host operation before the region broadcasts `b[16, 1024]` to `[16, 1, 1024]`. -/
theorem V_v0 (c : Dev nD) :
    V m c main_v0 = broadcastInDim S16x1x1024 ![0, 2] bcast_S16x1024_S16x1x1024_0_2 (m ((c : Thread nD τ).loc main_arg3)) := by
  show StableHlo.after hostOps0 _ (Proc.devRef .tc main_v0) = _
  after_results

/-- Read at `(r, 0, d)` it is the bias table at `(r, d)`. -/
theorem V_v0_apply (c : Dev nD) (r : Fin 16) (d : Fin 1024) :
    V m c main_v0 (ix3 r (0 : Fin 1) d) = m ((c : Thread nD τ).loc main_arg3) (ix2 r d) := by
  rw [V_v0]
  refine broadcastInDim_apply _ _ _ (ix3 r (0 : Fin 1) d) (ix2 r d) fun ax => ?_
  match ax with
  | ⟨0, _⟩ => rfl
  | ⟨1, _⟩ => rfl

/-! ## The five input blocks at a point, read at coordinates -/

theorem iblk0_apply (hO : Ok m) (c : Dev nD) (t : Fin grid0.N) (s k : Fin 512) :
    iblk m hO c 0 t (ix3 (0 : Fin 1) s k) = m ((c : Thread nD τ).loc main_arg0) (ix3 (pt t) s k) := by
  unfold iblk
  refine (read0 (adm m hO) (V m c main_arg0) t s k).trans ?_
  exact congrFun (V1_of m c main_arg0 (by decide)) _

theorem iblk1_apply (hO : Ok m) (c : Dev nD) (t : Fin grid0.N) (r : Fin 16) (hr : (tbl m 0 (ix1 (pt t))).toNat = r.val) (k : Fin 512) (d : Fin 1024) :
    iblk m hO c 1 t (ix3 (0 : Fin 1) k d) = m ((c : Thread nD τ).loc main_arg2) (ix3 r k d) := by
  unfold iblk
  refine (read1 (adm m hO) (tbl m) rfl (V m c main_arg2) t r hr k d).trans ?_
  exact congrFun (V1_of m c main_arg2 (by decide)) _

theorem iblk2_apply (hO : Ok m) (c : Dev nD) (t : Fin grid0.N) (r : Fin 16) (hr : (tbl m 0 (ix1 (pt t))).toNat = r.val) (d : Fin 1024) :
    iblk m hO c 2 t (ix3 (0 : Fin 1) (0 : Fin 1) d) = m ((c : Thread nD τ).loc main_arg3) (ix2 r d) := by
  unfold iblk
  refine (read2 (adm m hO) (tbl m) rfl (V m c main_v0) t r hr d).trans ?_
  exact V_v0_apply m c r d

theorem iblk3_apply (hO : Ok m) (c : Dev nD) (t : Fin grid0.N) (s : Fin 512) :
    iblk m hO c 3 t (ix3 (0 : Fin 1) s (0 : Fin 1)) = m ((c : Thread nD τ).loc main_arg1) (ix3 (pt t) s (0 : Fin 1)) := by
  unfold iblk
  refine (read3 (adm m hO) (V m c main_arg1) t s).trans ?_
  exact congrFun (V1_of m c main_arg1 (by decide)) _

theorem iblk4_apply (hO : Ok m) (c : Dev nD) (t : Fin grid0.N) (d : Fin 1024) :
    iblk m hO c 4 t (ix2 (0 : Fin 1) d) = m ((c : Thread nD τ).loc main_arg5) (ix2 (0 : Fin 1) d) := by
  unfold iblk
  refine (read4 (adm m hO) (V m c main_arg5) t d).trans ?_
  exact congrFun (V1_of m c main_arg5 (by decide)) _

/-! ## What a point writes back -/

/-- Window 5's block at point `t` sits at sample `t`'s rows of the result array. -/
theorem emb5 (a : (pcfg0 (F := Ideal)).Adm) (t : Fin grid0.N) (s : Fin 512) (d : Fin 1024) :
    (((cfg0 a).win 5).blk t).view.emb (ix3 (0 : Fin 1) s d) = (ix3 (pt t) s d : S32x512x1024.Idx) := by
  funext ax; apply Fin.ext
  have e := idx5 t
  match ax with
  | ⟨0, _⟩ => show cc0_transform_5 (grid0.coords t) 0 * 1 + 1 * 0 = t.val; rw [e]; show t.val * 1 + 1 * 0 = t.val; omega
  | ⟨1, _⟩ => show cc0_transform_5 (grid0.coords t) 1 * 512 + 1 * s.val = s.val; rw [e]; show 0 * 512 + 1 * s.val = s.val; omega
  | ⟨2, _⟩ => show cc0_transform_5 (grid0.coords t) 2 * 1024 + 1 * d.val = d.val; rw [e]; show 0 * 1024 + 1 * d.val = d.val; omega

/-- Read through it, an array's contents are the contents at sample `t`'s rows. -/
theorem read5 (a : (pcfg0 (F := Ideal)).Adm) (X : FVec Ideal S32x512x1024 .f32) (t : Fin grid0.N) (s : Fin 512) (d : Fin 1024) :
    (((cfg0 a).win 5).blk t).view.read (Elt Ideal) X (ix3 (0 : Fin 1) s d) = X (ix3 (pt t) s d) := by
  show X _ = X _
  exact congrArg X (emb5 a t s d)

/-- Two `[1, 512, 1024]` blocks that agree at every position and feature are equal. -/
theorem blk_ext (f g : S1x512x1024.Idx → Elt Ideal .f32) (h : ∀ (s : Fin 512) (d : Fin 1024), f (ix3 (0 : Fin 1) s d) = g (ix3 (0 : Fin 1) s d)) : f = g := by
  funext j
  have e : j = ix3 (0 : Fin 1) (j 1) (j 2) := by
    funext ax
    match ax with
    | ⟨0, _⟩ => exact Fin.ext (by have h0 : (j 0).val < 1 := (j 0).isLt; show (j 0).val = 0; omega)
    | ⟨1, _⟩ => rfl
    | ⟨2, _⟩ => rfl
  exact (congrArg f e).trans ((h _ _).trans (congrArg g e).symm)

/-- WHAT POINT `t` WRITES BACK is sample `t`'s block of the blended affine images of the argument arrays. -/
theorem flushed_eq (hO : Ok m) (c : Dev nD) (row : Fin 32 → Fin 16) (hrow : ∀ bb : Fin 32, (tbl m 0 (ix1 bb)).toNat = (row bb).val)
    (t : Fin (cfgM m hO).N) :
    (dats m hO 0 c).flushed 5 t = (((cfgM m hO).win 5).blk t).view.read (Elt Ideal)
      (Cert.DispatchSpec.blend (m ((c : Thread nD τ).loc main_arg0)) (m ((c : Thread nD τ).loc main_arg1)) (m ((c : Thread nD τ).loc main_arg2))
        (m ((c : Thread nD τ).loc main_arg3)) (m ((c : Thread nD τ).loc main_arg5)) row) := by
  show ((cfgM m hO).win 5).cut (grid0.coords t) ((dats m hO 0 c).after 5 t) = _
  rw [after_5, outAt_eq]
  refine blk_ext _ _ fun s d => ?_
  refine (Cert.KernelPayload.pay_apply _ _ _ _ _ s d).trans ?_
  refine Eq.trans ?_ (read5 (adm m hO) _ t s d).symm
  rw [Cert.DispatchSpec.blend_apply]
  unfold Cert.DispatchSpec.blendAt
  simp only [iblk0_apply m hO c t, iblk1_apply m hO c t (row (pt t)) (hrow (pt t)), iblk2_apply m hO c t (row (pt t)) (hrow (pt t)),
    iblk3_apply m hO c t, iblk4_apply m hO c t]

/-! ## The blocks cover the result array -/

/-- The result's block is written back at every point: its block index moves with the point. -/
theorem flushOf5 : ∀ t : Fin grid0.N, Pipeline.Window.flushOf grid0 true cc0_transform_5 t = true := by decide +kernel
theorem flush5 (a : (pcfg0 (F := Ideal)).Adm) (t : Fin (cfg0 a).N) : ((cfg0 a).win 5).flush t = true := flushOf5 t

/-- A sample number as a point of the grid. -/
def tOf (b : Fin 32) : Fin grid0.N := ⟨b.val, by rw [N_0]; exact b.isLt⟩

/-- Every index `(bb, s, d)` of the result array lies in the block of point `bb`, which is written back. -/
theorem cover5 (a : (pcfg0 (F := Ideal)).Adm) (i : S32x512x1024.Idx) :
    ∃ t : Fin (cfg0 a).N, ((cfg0 a).win 5).flush t = true ∧ i ∈ (((cfg0 a).win 5).blk t).view.set := by
  refine ⟨tOf (i 0), flush5 a _, ?_⟩
  have e : (((cfg0 a).win 5).blk (tOf (i 0))).view.emb (ix3 (0 : Fin 1) (i 1) (i 2)) = i :=
    (emb5 a (tOf (i 0)) (i 1) (i 2)).trans (by
      funext ax
      match ax with
      | ⟨0, _⟩ => rfl
      | ⟨1, _⟩ => rfl
      | ⟨2, _⟩ => rfl)
  exact Eq.mp (congrArg (fun x => x ∈ (((cfg0 a).win 5).blk (tOf (i 0))).view.set) e)
    ((((cfg0 a).win 5).blk (tOf (i 0))).view.emb_mem_set (ix3 (0 : Fin 1) (i 1) (i 2)))

/-! ## The result array -/

/-- THE RESULT ARRAY after the region: the blended affine images of the argument arrays, sample `bb` with the
    weights and bias of the subject the id table names for it. -/
theorem final_v1 (hO : Ok m) (c : Dev nD) (row : Fin 32 → Fin 16) (hrow : ∀ bb : Fin 32, (tbl m 0 (ix1 bb)).toNat = (row bb).val) :
    (dats m hO 0 c).arrAt 5 (cfgM m hO).N
      = Cert.DispatchSpec.blend (m ((c : Thread nD τ).loc main_arg0)) (m ((c : Thread nD τ).loc main_arg1)) (m ((c : Thread nD τ).loc main_arg2))
          (m ((c : Thread nD τ).loc main_arg3)) (m ((c : Thread nD τ).loc main_arg5)) row :=
  (dats m hO 0 c).arrAt_eq_of_cover 5 _ (fun t _ => flushed_eq m hO c row hrow t) (cover5 (adm m hO))

end Cert.KernelIdeal.HandValue

end
-- ==== Proof.LibGatherScatter.lean ====
/-
  The host's gather and accumulating scatter in the shapes array indexing `x[idx]` and the segment sum
  `x.at[idx].add(u)` lower to, READ AT AN INDEX at the ideal instance, for any sizes: one axis of the operand is
  indexed by a column of 32-bit words, the other axis (if any) is carried whole. The gather reads the operand at
  the word's signed value clamped into the axis; the scatter adds to an element every update whose word's signed
  value is exactly that element's coordinate (an update landing outside is dropped). Also the negative-index
  wrap (a negative word counts from the end) and the column broadcast that feed them, read at an index.
  Each lemma is stated for ANY dimension-number record of the given type whose fields are the listed ones.
-/
import Idealize.ShloMosaic.PureOps.Ideal
import Idealize.ShloMosaic.Lib.ValueIdx
import Idealize.ShloMosaic.Lib.StableHlo.Predicate
import Mathlib.Algebra.BigOperators.Group.Finset.Basic

set_option maxRecDepth 16384

noncomputable section

namespace Cert.LibGatherScatter

open Idealize.ShloMosaic Idealize.ShloMosaic.ValueIdx
open scoped BigOperators

/-! ## The clamp of a start index -/

/-- The signed value of a 32-bit word clamped into `[0, N - 1]`: a negative word gives `0`, one at or past `N`
    gives `N - 1`. -/
def clampIdx (N : Nat) (hN : 0 < N) (v : BitVec 32) : Fin N := ⟨min v.toInt.toNat (N - 1), by omega⟩

/-- A word whose signed value is already in `[0, N)` is clamped to that value. -/
theorem clampIdx_of_inRange {N : Nat} (hN : 0 < N) {v : BitVec 32} (h0 : 0 ≤ v.toInt) (h1 : v.toInt < N) :
    (clampIdx N hN v).val = v.toInt.toNat := by
  show min v.toInt.toNat (N - 1) = v.toInt.toNat
  omega

/-! ## The gather along the first axis, read at an index -/

/-- The gather of a rank-1 operand `[N]` at a column `[E, 1]` of start indices (the operand's one axis collapsed
    and start-indexed, no offset or batching axes, the index vector on axis 1): result element `e` is the operand
    at start index `e`'s signed value clamped into `[0, N - 1]`. -/
theorem gather1_apply {α : Type} {N E : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ 32) (e : Fin E) :
    Host.gather d x idx (ix1 e) = x (ix1 (clampIdx N hN (idx (ix2 e 0)))) := by
  have h := StableHlo.Predicate.gather_take d hcoll hob hsim hivd x idx e hN
  have e1 : ∀ {n : Nat} (k : Fin n), (Shape.Idx.ofFin k : (⟨1, ![n]⟩ : Shape).Idx) = ix1 k := fun k => by
    funext a
    obtain rfl : a = 0 := Subsingleton.elim _ _
    exact Fin.ext rfl
  have e2 : StableHlo.Predicate.ixP e = ix2 e 0 := by
    funext a
    match a with
    | ⟨0, _⟩ => rfl
    | ⟨1, _⟩ => rfl
  rw [e1, e1] at h
  simp only [e2] at h
  exact h

/-- The gather of whole rows of a rank-2 operand `[N, C]` at a column `[E, 1]` of start indices (axis 0 collapsed
    and start-indexed, axis 1 the one offset axis, the index vector on axis 1): result element `(e, f)` is the
    operand at row "start index `e`'s signed value clamped into `[0, N - 1]`", column `f`. -/
theorem gather2_apply {α : Type} {N E C : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ 32) (e : Fin E) (f : Fin C) :
    Host.gather d x idx (ix2 e f) = x (ix2 (clampIdx N hN (idx (ix2 e 0))) f) := by
  -- the slice is one row high, so the clamp's upper end is N - 1
  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext a
  apply Fin.ext
  match a with
  | ⟨0, _⟩ =>
    -- the row: the clamped start, no batching or offset coordinate
    show GatherDims.start _ _ idx 0 + GatherDims.batchCoord _ _ 0 + GatherDims.offCoord _ _ 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the column: start 0 (the axis is not start-indexed), the offset coordinate the result's
    show GatherDims.start _ _ idx 1 + GatherDims.batchCoord _ _ 1 + GatherDims.offCoord _ _ 1 = f.val
    have h1 : (1 : Fin (⟨2, ![N, C]⟩ : Shape).rank) ∉ [(0 : Fin (⟨2, ![N, C]⟩ : Shape).rank)] :=
      (by decide : (1 : Fin 2) ∉ [(0 : Fin 2)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl

/-! ## The accumulating scatter along the first axis, read at an index -/

/-- An update lands at `i` exactly when, on every operand axis, its start plus its window coordinate is `i`'s
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hall
      have hfa := congrArg Fin.val (congrFun (Option.some.inj h) a)
      have h0 := (hall a).1
      simp only at hfa
      omega
    · exact absurd h (by simp)
  · intro h
    have hall : ∀ a, 0 ≤ d.start j idx a + (d.window j a : ℤ) ∧ d.start j idx a + (d.window j a : ℤ) < (s.size a : ℤ) := by
      intro a
      have h1 := h a
      have h2 := (i a).isLt
      constructor <;> omega
    rw [dif_pos hall]
    congr 1
    funext a
    apply Fin.ext
    show (d.start j idx a + (d.window j a : ℤ)).toNat = (i a).val
    have h1 := h a
    omega

/-! ### Rank 1: `[N]` at a column `[E, 1]` of scatter indices, updates `[E]` -/

section Rank1
variable {N E : Nat} (d : ScatterDims ⟨1, ![N]⟩ ⟨2, ![E, 1]⟩ ⟨1, ![E]⟩)
  (huw : d.updateWindowDims = []) (hiw : d.insertedWindowDims = [0])
  (hsd : d.scatterDimsToOperandDims = [0]) (hivd : d.indexVectorDim = 1)
include huw hiw hsd hivd

/-- Update `j`'s start on the operand's axis is the signed value of scatter index `j`. -/
theorem start1 {w : Nat} (idx : IVec ⟨2, ![E, 1]⟩ w) (j : (⟨1, ![E]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The operand's axis is an inserted one: no window coordinate on it. -/
theorem window1 (j : (⟨1, ![E]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- Update `j` lands at `i` exactly when scatter index `j`'s signed value is `i`'s coordinate. -/
theorem resultIdx1_eq_some_iff {w : Nat} (idx : IVec ⟨2, ![E, 1]⟩ w) (j : (⟨1, ![E]⟩ : Shape).Idx)
    (i : (⟨1, ![N]⟩ : Shape).Idx) :
    d.resultIdx? j idx = some i ↔ (idx (ix2 (j 0) 0)).toInt = ((i 0).val : ℤ) := by
  rw [resultIdx?_eq_some_iff]
  constructor
  · intro h
    have h0 := h 0
    rw [start1 d huw hiw hsd hivd, window1 d huw hiw hsd hivd] at h0
    simpa using h0
  · intro h a
    obtain rfl : a = 0 := Subsingleton.elim _ _
    rw [start1 d huw hiw hsd hivd, window1 d huw hiw hsd hivd]
    simpa using h

/-- THE SCATTER-ADD READ AT `i`: the operand's element plus the sum of the updates whose scatter index, read
    signed, is exactly `i` (an index below `0` or at or past `N` meets no `i`: that update is dropped). -/
theorem scatterAdd1_apply {φ : FTy}
    (x : FVec Ideal ⟨1, ![N]⟩ φ) (idx : IVec ⟨2, ![E, 1]⟩ 32) (upd : FVec Ideal ⟨1, ![E]⟩ φ) (i : Fin N) :
    Host.scatterAdd (F := Ideal) d x idx upd (ix1 i)
      = x (ix1 i) + ∑ e ∈ Finset.univ.filter (fun e : Fin E => (idx (ix2 e 0)).toInt = (i.val : ℤ)), upd (ix1 e) := by
  show x (ix1 i) + ∑ j ∈ Finset.univ.filter (fun j => d.resultIdx? j idx = some (ix1 i)), upd j = _
  congr 1
  refine Finset.sum_nbij' (fun j => j 0) ix1 ?_ ?_ ?_ ?_ ?_
  · intro j hj
    exact Finset.mem_filter.mpr ⟨Finset.mem_univ _,
      (resultIdx1_eq_some_iff d huw hiw hsd hivd idx j (ix1 i)).mp (Finset.mem_filter.mp hj).2⟩
  · intro e he
    exact Finset.mem_filter.mpr ⟨Finset.mem_univ _,
      (resultIdx1_eq_some_iff d huw hiw hsd hivd idx (ix1 e) (ix1 i)).mpr (Finset.mem_filter.mp he).2⟩
  · intro j _
    exact (eq_ix1 j).symm
  · intro e _
    rfl
  · intro j _
    exact congrArg upd (eq_ix1 j)

end Rank1

/-! ### Rank 2: whole rows of `[N, C]` at a column `[E, 1]` of scatter indices, updates `[E, C]` -/

section Rank2
variable {N E C : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hivd : d.indexVectorDim = 1)
include huw hiw hsd hivd

/-- Update `j`'s start on the row axis is the signed value of scatter index `j 0`. -/
theorem start2_row {w : Nat} (idx : IVec ⟨2, ![E, 1]⟩ w) (j : (⟨2, ![E, C]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The column axis is not scatter-indexed: its start is `0`. -/
theorem start2_col {w : Nat} (idx : IVec ⟨2, ![E, 1]⟩ w) (j : (⟨2, ![E, C]⟩ : Shape).Idx) :
    d.start j idx 1 = 0 := by
  obtain ⟨uw, iw, sd, iv, wf⟩ := d
  simp only at huw hiw hsd hivd
  subst huw hiw hsd hivd
  unfold ScatterDims.start
  rw [dif_neg (by decide : (1 : Fin 2) ∉ [(0 : Fin 2)])]

/-- The row axis is an inserted one: no window coordinate on it. -/
theorem window2_row (j : (⟨2, ![E, C]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- The column axis carries the update's window coordinate: its column. -/
theorem window2_col (j : (⟨2, ![E, C]⟩ : Shape).Idx) : d.window j 1 = (j 1).val := by
  obtain ⟨uw, iw, sd, iv, wf⟩ := d
  simp only at huw hiw hsd hivd
  subst huw hiw hsd hivd
  unfold ScatterDims.window
  rw [dif_pos (by simp [ScatterDims.sKept, Shape.kept])]
  rfl

/-- Update `j` lands at `i` exactly when scatter index `j 0`'s signed value is `i`'s row and `j`'s column is `i`'s. -/
theorem resultIdx2_eq_some_iff {w : Nat} (idx : IVec ⟨2, ![E, 1]⟩ w) (j : (⟨2, ![E, C]⟩ : Shape).Idx)
    (i : (⟨2, ![N, C]⟩ : Shape).Idx) :
    d.resultIdx? j idx = some i ↔ (idx (ix2 (j 0) 0)).toInt = ((i 0).val : ℤ) ∧ (j 1).val = (i 1).val := by
  rw [resultIdx?_eq_some_iff]
  constructor
  · intro h
    have h0 := h 0
    have h1 := h 1
    rw [start2_row d huw hiw hsd hivd, window2_row d huw hiw hsd hivd] at h0
    rw [start2_col d huw hiw hsd hivd, window2_col d huw hiw hsd hivd] at h1
    refine ⟨by simpa using h0, ?_⟩
    have h1' : ((j 1).val : ℤ) = ((i 1).val : ℤ) := by simpa using h1
    exact_mod_cast h1'
  · rintro ⟨h0, h1⟩ a
    match a with
    | ⟨0, _⟩ =>
      show d.start j idx 0 + (d.window j 0 : ℤ) = ((i 0).val : ℤ)
      rw [start2_row d huw hiw hsd hivd, window2_row d huw hiw hsd hivd]
      simpa using h0
    | ⟨1, _⟩ =>
      show d.start j idx 1 + (d.window j 1 : ℤ) = ((i 1).val : ℤ)
      rw [start2_col d huw hiw hsd hivd, window2_col d huw hiw hsd hivd, h1]
      simp

/-- THE SCATTER-ADD READ AT `(i, f)`: the operand's element plus the sum, over the updates' rows whose scatter
    index, read signed, is exactly `i`, of that row's column `f` (an index below `0` or at or past `N` meets no
    `i`: that row is dropped). -/
theorem scatterAdd2_apply {φ : FTy}
    (x : FVec Ideal ⟨2, ![N, C]⟩ φ) (idx : IVec ⟨2, ![E, 1]⟩ 32) (upd : FVec Ideal ⟨2, ![E, C]⟩ φ) (i : Fin N) (f : Fin C) :
    Host.scatterAdd (F := Ideal) d x idx upd (ix2 i f)
      = x (ix2 i f) + ∑ e ∈ Finset.univ.filter (fun e : Fin E => (idx (ix2 e 0)).toInt = (i.val : ℤ)), upd (ix2 e f) := by
  show x (ix2 i f) + ∑ j ∈ Finset.univ.filter (fun j => d.resultIdx? j idx = some (ix2 i f)), upd j = _
  congr 1
  -- on the updates that land at (i, f) the column is f: such an update is (its row, f)
  have hcol : ∀ j : (⟨2, ![E, C]⟩ : Shape).Idx, d.resultIdx? j idx = some (ix2 i f) → j = ix2 (j 0) f := fun j hj => by
    have h1 := ((resultIdx2_eq_some_iff d huw hiw hsd hivd idx j (ix2 i f)).mp hj).2
    have hf : j 1 = f := Fin.ext h1
    rw [← hf]
    exact eq_ix2 j
  refine Finset.sum_nbij' (fun j => j 0) (fun e => ix2 e f) ?_ ?_ ?_ ?_ ?_
  · intro j hj
    exact Finset.mem_filter.mpr ⟨Finset.mem_univ _,
      ((resultIdx2_eq_some_iff d huw hiw hsd hivd idx j (ix2 i f)).mp (Finset.mem_filter.mp hj).2).1⟩
  · intro e he
    exact Finset.mem_filter.mpr ⟨Finset.mem_univ _,
      (resultIdx2_eq_some_iff d huw hiw hsd hivd idx (ix2 e f) (ix2 i f)).mpr ⟨(Finset.mem_filter.mp he).2, rfl⟩⟩
  · intro j hj
    exact (hcol j (Finset.mem_filter.mp hj).2).symm
  · intro e _
    rfl
  · intro j hj
    exact congrArg upd (hcol j (Finset.mem_filter.mp hj).2)

end Rank2

/-! ## The negative-index wrap and the column of indices, read at an index -/

/-- The negative-index wrap on one word: a negative index counts from the end, `n` the axis's extent. -/
def wrapW (n : BitVec 32) (v : BitVec 32) : BitVec 32 := if v.toInt < 0 then v + n else v

/-- A non-negative index is left alone. -/
theorem wrapW_of_nonneg {n v : BitVec 32} (h : 0 ≤ v.toInt) : wrapW n v = v := by
  unfold wrapW
  rw [if_neg (not_lt.mpr h)]

/-- The wrap as the select of "`v < 0`, signed" between `v + n` and `v`, the zero and `n` scalars broadcast to
    `v`'s shape, read at an index: the wrap of the word there. -/
theorem wrap_apply {s : Shape} (h0 hn : (⟨0, ![]⟩ : Shape).BroadcastsInDim s ![]) (n : BitVec 32) (v : IVec s 32)
    (i : s.Idx) :
    select (cmpi .slt v (broadcastInDim s ![] h0 (constantI ⟨0, ![]⟩ 32 0#32)))
      (addi v (broadcastInDim s ![] hn (constantI ⟨0, ![]⟩ 32 n))) v i = wrapW n (v i) := by
  show Scalar.select (IntOp.cmpi .slt (v i) 0#32) (IntOp.addi (v i) n) (v i) = wrapW n (v i)
  unfold wrapW
  by_cases hlt : (v i).toInt < 0
  · have hc : IntOp.cmpi .slt (v i) 0#32 = 1#1 := by
      simp [IntOp.cmpi, BitVec.slt, hlt]
    rw [hc, select_one, if_pos hlt]
    rfl
  · have hc : IntOp.cmpi .slt (v i) 0#32 = 0#1 := by
      simp [IntOp.cmpi, BitVec.slt, hlt]
    rw [hc, select_zero, if_neg hlt]

/-- A vector `[E]` laid out as the column `[E, 1]` reads, at `(e, 0)`, the vector at `e`. -/
theorem bcast_col_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  unfold broadcastInDim
  congr 1
  funext a
  obtain rfl : a = 0 := Subsingleton.elim _ _
  apply Fin.ext
  split
  · rename_i h1
    have hE : E = 1 := h1
    have he := e.isLt
    show 0 = e.val
    omega
  · rfl

end Cert.LibGatherScatter

end
-- ==== Proof.LibGather3.lean ====
/-
  The host's gather in the shape the array indexing `x[idx]` of a rank-3 operand lowers to, READ AT AN INDEX, for
  any sizes and any element type: the first axis of the operand `[N, A, B]` is indexed by a column `[E, 1]` of
  32-bit words, the other two axes are carried whole, so the result `[E, A, B]` holds one whole `[A, B]` slab of
  the operand per start index. Element `(e, p, q)` of the result is the operand at `(c, p, q)`, `c` the signed
  value of start index `e` clamped into the first axis.
  The lemma is stated for ANY dimension-number record of the given type whose fields are the listed ones.
-/
import Idealize.ShloMosaic.PureOps.Ideal
import Idealize.ShloMosaic.Lib.ValueIdx
import proofs.«405792_j67817533604482_1_alg».proof.Proof.LibGatherScatter

set_option maxRecDepth 16384

noncomputable section

namespace Cert.LibGather3

open Idealize.ShloMosaic Idealize.ShloMosaic.ValueIdx Cert.LibGatherScatter

/-- The gather of whole `[A, B]` slabs of a rank-3 operand `[N, A, B]` at a column `[E, 1]` of start indices (axis 0
    collapsed and start-indexed, axes 1 and 2 the two offset axes, the index vector on axis 1, no batching): result
    element `(e, p, q)` is the operand at slab "start index `e`'s signed value clamped into `[0, N - 1]`", row `p`,
    column `q`. -/
theorem gather3_apply {α : Type} {N E A B : Nat} (hN : 0 < N)
    (d : GatherDims ⟨3, ![N, A, B]⟩ ⟨2, ![E, 1]⟩ ⟨3, ![E, A, B]⟩)
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec ⟨2, ![E, 1]⟩ 32) (e : Fin E) (p : Fin A) (q : Fin B) :
    Host.gather d x idx (ix3 e p q) = x (ix3 (clampIdx N hN (idx (ix2 e 0))) p q) := by
  -- the slice is one slab thick, so the clamp's upper end is N - 1
  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext a
  apply Fin.ext
  match a with
  | ⟨0, _⟩ =>
    -- the slab: the clamped start, no batching or offset coordinate
    show GatherDims.start _ _ idx 0 + GatherDims.batchCoord _ _ 0 + GatherDims.offCoord _ _ 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the row: start 0 (the axis is not start-indexed), the offset coordinate the result's axis 1
    show GatherDims.start _ _ idx 1 + GatherDims.batchCoord _ _ 1 + GatherDims.offCoord _ _ 1 = p.val
    have h1 : (1 : Fin (⟨3, ![N, A, B]⟩ : Shape).rank) ∉ [(0 : Fin (⟨3, ![N, A, B]⟩ : Shape).rank)] :=
      (by decide : (1 : Fin 3) ∉ [(0 : Fin 3)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl
  | ⟨2, _⟩ =>
    -- the column: start 0, the offset coordinate the result's axis 2
    show GatherDims.start _ _ idx 2 + GatherDims.batchCoord _ _ 2 + GatherDims.offCoord _ _ 2 = q.val
    have h2 : (2 : Fin (⟨3, ![N, A, B]⟩ : Shape).rank) ∉ [(0 : Fin (⟨3, ![N, A, B]⟩ : Shape).rank)] :=
      (by decide : (2 : Fin 3) ∉ [(0 : Fin 3)])
    rw [GatherDims.batchCoord_eq_zero _ _ _ List.not_mem_nil]
    unfold GatherDims.start GatherDims.offCoord
    rw [dif_neg h2, dif_pos ((GatherDims.mem_sKept _ _).mpr ⟨h2, List.not_mem_nil⟩)]
    simp only [Nat.zero_add, Nat.add_zero]
    rfl

end Cert.LibGather3

end
-- ==== Proof.RefValue.lean ====
/-
  The reference program's blended result at the ideal instance, as the shared specification: when every subject
  id, read signed, is the row `row bb ∈ [0, 16)`, the reference's `W[ids]`, `b[ids]` gathers read row `row bb`
  (the negative-index wrap leaves a non-negative id alone, and the gather's clamp leaves an id below 16 alone), the
  batched contraction is the sum over `k`, and the broadcasts lay the bias, the mask and the mask token along the
  axes the specification names.
-/
import proofs.«405792_j67817533604482_1_alg».proof.Proof.Gen.ReferenceIdeal.Read
import proofs.«405792_j67817533604482_1_alg».proof.Proof.Spec
import proofs.«405792_j67817533604482_1_alg».proof.Proof.LibGatherScatter
import proofs.«405792_j67817533604482_1_alg».proof.Proof.LibGather3

set_option maxRecDepth 16384

noncomputable section

namespace Cert.RefValue

open Cert.ReferenceIdeal Cert.ReferenceIdeal.Gen Cert.ReferenceIdeal.Read Idealize.ShloMosaic Idealize.ShloMosaic.ValueIdx
open Cert.LibGatherScatter Cert.LibGather3
open scoped BigOperators

/-- The wrapped id of sample `bb` (for the weights' gather) is the id itself: it is not negative. -/
theorem v4_at (x6 : (⟨S32, .i32⟩ : BufTy).Contents (Elt Ideal)) (bb : Fin 32) (h0 : 0 ≤ (x6 (ix1 bb)).toInt) :
    val_main_v4 (F := Ideal) x6 (ix1 bb) = x6 (ix1 bb) := by
  have h := wrap_apply (s := S32) bcast_S_S32 bcast_S_S32 16#32 x6 (ix1 bb)
  rw [wrapW_of_nonneg h0] at h
  exact h

/-- The wrapped id of sample `bb` (for the biases' gather) is the id itself. -/
theorem v11_at (x6 : (⟨S32, .i32⟩ : BufTy).Contents (Elt Ideal)) (bb : Fin 32) (h0 : 0 ≤ (x6 (ix1 bb)).toInt) :
    val_main_v11 (F := Ideal) x6 (ix1 bb) = x6 (ix1 bb) := by
  have h := wrap_apply (s := S32) bcast_S_S32 bcast_S_S32 16#32 x6 (ix1 bb)
  rw [wrapW_of_nonneg h0] at h
  exact h

/-- A word whose signed value is `r < 16` is clamped to `r`. -/
theorem clamp_row (v : BitVec 32) (r : Fin 16) (h : v.toInt = (r.val : ℤ)) :
    clampIdx 16 (by decide) v = r := by
  apply Fin.ext
  rw [clampIdx_of_inRange (by decide) (by rw [h]; exact Int.natCast_nonneg _) (by rw [h]; exact_mod_cast r.isLt), h]
  rfl

/-- The gathered weights at `(bb, k, d)`: the weights of row `row bb`. -/
theorem v6_at (x2 : (⟨S16x512x1024, .f32⟩ : BufTy).Contents (Elt Ideal)) (x6 : (⟨S32, .i32⟩ : BufTy).Contents (Elt Ideal))
    (row : Fin 32 → Fin 16) (hrow : ∀ bb : Fin 32, (x6 (ix1 bb)).toInt = ((row bb).val : ℤ))
    (bb : Fin 32) (k : Fin 512) (d : Fin 1024) :
    val_main_v6 (F := Ideal) x2 x6 (ix3 bb k d) = x2 (ix3 (row bb) k d) := by
  unfold val_main_v6
  rw [gather3_apply (by decide : 0 < 16) _ rfl rfl rfl rfl rfl]
  unfold val_main_v5
  rw [bcast_col_apply, v4_at x6 bb (by rw [hrow]; exact Int.natCast_nonneg _), clamp_row _ (row bb) (hrow bb)]

/-- The gathered biases at `(bb, d)`: the biases of row `row bb`. -/
theorem v13_at (x3 : (⟨S16x1024, .f32⟩ : BufTy).Contents (Elt Ideal)) (x6 : (⟨S32, .i32⟩ : BufTy).Contents (Elt Ideal))
    (row : Fin 32 → Fin 16) (hrow : ∀ bb : Fin 32, (x6 (ix1 bb)).toInt = ((row bb).val : ℤ))
    (bb : Fin 32) (d : Fin 1024) :
    val_main_v13 (F := Ideal) x3 x6 (ix2 bb d) = x3 (ix2 (row bb) d) := by
  unfold val_main_v13
  rw [gather2_apply (by decide : 0 < 16) _ rfl rfl rfl rfl rfl]
  unfold val_main_v12
  rw [bcast_col_apply, v11_at x6 bb (by rw [hrow]; exact Int.natCast_nonneg _), clamp_row _ (row bb) (hrow bb)]

/-- THE REFERENCE'S BLEND is the specification's, under the row selection the ids spell. -/
theorem ref_blend (x0 : (⟨S32x512x512, .f32⟩ : BufTy).Contents (Elt Ideal)) (x1 : (⟨S32x512x1, .f32⟩ : BufTy).Contents (Elt Ideal))
    (x2 : (⟨S16x512x1024, .f32⟩ : BufTy).Contents (Elt Ideal)) (x3 : (⟨S16x1024, .f32⟩ : BufTy).Contents (Elt Ideal))
    (x5 : (⟨S1x1024, .f32⟩ : BufTy).Contents (Elt Ideal)) (x6 : (⟨S32, .i32⟩ : BufTy).Contents (Elt Ideal))
    (row : Fin 32 → Fin 16) (hrow : ∀ bb : Fin 32, (x6 (ix1 bb)).toInt = ((row bb).val : ℤ)) :
    Cert.ReferenceIdeal.Read.val_main_v26 (F := Ideal) x0 x1 x2 x3 x5 x6 = Cert.DispatchSpec.blend x0 x1 x2 x3 x5 row := by
  funext i
  obtain ⟨bb, s, d, rfl⟩ : ∃ (bb : Fin 32) (s : Fin 512) (d : Fin 1024), i = ix3 bb s d := ⟨i 0, i 1, i 2, eq_ix3 i⟩
  rw [Cert.DispatchSpec.blend_apply]
  rw [val_main_v26_apply, val_main_v21_apply, val_main_v17_apply, val_main_v14_apply, val_main_v16_apply,
    val_main_v15_apply, val_main_v20_apply, val_main_v19_apply, val_main_v18_apply, val_main_cst_apply,
    val_main_v25_apply, val_main_v23_apply, val_main_v22_apply, val_main_v24_apply]
  -- the composed index maps at (bb, s, d)
  have el : ∀ k : Fin 512, lidx_main_v14 (ix3 bb s d) k = ix3 bb s k := fun k => funext fun a =>
    match a with | ⟨0, _⟩ => rfl | ⟨1, _⟩ => rfl | ⟨2, _⟩ => rfl
  have er : ∀ k : Fin 512, ridx_main_v14 (ix3 bb s d) k = ix3 bb k d := fun k => funext fun a =>
    match a with | ⟨0, _⟩ => rfl | ⟨1, _⟩ => rfl | ⟨2, _⟩ => rfl
  have e15 : idx_main_v15 (idx_main_v16 (ix3 bb s d)) = ix2 bb d := funext fun a =>
    match a with | ⟨0, _⟩ => rfl | ⟨1, _⟩ => rfl
  have e20 : idx_main_v20 (ix3 bb s d) = ix3 bb s (0 : Fin 1) := funext fun a =>
    match a with | ⟨0, _⟩ => rfl | ⟨1, _⟩ => rfl | ⟨2, _⟩ => rfl
  have e22 : idx_main_v22 (idx_main_v23 (ix3 bb s d)) = ix2 (0 : Fin 1) d := funext fun a =>
    match a with | ⟨0, _⟩ => rfl | ⟨1, _⟩ => rfl
  have e24 : idx_main_v24 (ix3 bb s d) = ix3 bb s (0 : Fin 1) := funext fun a =>
    match a with | ⟨0, _⟩ => rfl | ⟨1, _⟩ => rfl | ⟨2, _⟩ => rfl
  simp only [el, er]
  rw [e15, e20, e22, e24]
  simp only [v6_at x2 x6 row hrow, v13_at x3 x6 row hrow]
  rfl

end Cert.RefValue

end
-- ==== Proof.KernelIdeal.Result.lean ====
/-
  The result at the ideal instance. After the region the tail gathers the subject-embedding rows by the id table
  (a negative id counted from the end, the row clamped into the table) and joins them, as position 0, to the region's
  result array. The embedding rows are the same host operations of the same arguments in both programs; the
  region's result is, index by index, the blended affine image of the specification, the weight slab and bias row of
  sample `bb` being row `ids[bb]`, which is also the row the reference's gathers read when every id lies in [0, 16).
-/
import proofs.«405792_j67817533604482_1_alg».proof.Proof.KernelIdeal.Frame
import proofs.«405792_j67817533604482_1_alg».proof.Proof.KernelIdeal.Value
import proofs.«405792_j67817533604482_1_alg».proof.Proof.RefValue
import Idealize.ShloMosaic.Lib.StableHlo.Run

set_option maxRecDepth 16384

noncomputable section

namespace Cert.KernelIdeal.HandResult

open Cert.KernelIdeal.Hand Idealize.ShloMosaic.ValueIdx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The tail's last result at the last valuation: the join, along the position axis, of the gathered embedding rows
    and the region's result, as the tail's operations compute them from what the region left. -/
theorem V3_v10 (m : (ℓ : Loc nD τ sig) → Buf (Elt F) ℓ) (hO : Ok m) (c : Dev nD) :
    V3 m hO c main_v10 = concatenate S32x513x1024 1
      [⟨S32x1x1024, broadcastInDim S32x1x1024 ![0, 2] bcast_S32x1024_S32x1x1024_0_2
          (Host.gather gather_S16x1024_S32x1_S32x1024_1_0_n_n_0_1_11024 (V2 m hO c main_arg4 : (⟨S16x1024, .f32⟩ : BufTy).Contents (Elt F))
            (broadcastInDim S32x1 ![0] bcast_S32_S32x1_0
              (select (cmpi .slt (V2 m hO c main_arg6 : (⟨S32, .i32⟩ : BufTy).Contents (Elt F)) (broadcastInDim S32 ![] bcast_S_S32 (constantI S_ 32 0#32)))
                (addi (V2 m hO c main_arg6 : (⟨S32, .i32⟩ : BufTy).Contents (Elt F)) (broadcastInDim S32 ![] bcast_S_S32 (constantI S_ 32 16#32)))
                (V2 m hO c main_arg6 : (⟨S32, .i32⟩ : BufTy).Contents (Elt F)))))⟩,
       ⟨S32x512x1024, (V2 m hO c main_v1 : (⟨S32x512x1024, .f32⟩ : BufTy).Contents (Elt F))⟩]
      concatenates_S32x1x1024_S32x512x1024_S32x513x1024_d1 := by
  show StableHlo.after hostOps1 (V2 m hO c) (Proc.devRef .tc main_v10) = _
  after_results

/-- The gathered embedding rows are the reference's: the same operations, the same dimension numbers. -/
theorem embed_eq (x4 : (⟨S16x1024, .f32⟩ : BufTy).Contents (Elt F)) (x6 : (⟨S32, .i32⟩ : BufTy).Contents (Elt F)) :
    broadcastInDim S32x1x1024 ![0, 2] bcast_S32x1024_S32x1x1024_0_2
      (Host.gather gather_S16x1024_S32x1_S32x1024_1_0_n_n_0_1_11024 x4
        (broadcastInDim S32x1 ![0] bcast_S32_S32x1_0
          (select (cmpi .slt x6 (broadcastInDim S32 ![] bcast_S_S32 (constantI S_ 32 0#32)))
            (addi x6 (broadcastInDim S32 ![] bcast_S_S32 (constantI S_ 32 16#32))) x6)))
      = Cert.ReferenceIdeal.Read.val_main_v34 (F := F) x4 x6 := rfl

variable (m : (ℓ : Loc nD τ sig) → Buf (Elt Ideal) ℓ)

/-- THE RESULT: the program's result array at the last valuation is the reference's result stage of the launch
    memory's arguments, when every id, read unsigned, is below sixteen (and so is its signed value). -/
theorem result_eq (hO : Ok m) (c : Dev nD) (hlt : ∀ bb : Fin 32, (tbl m 0 (ix1 bb)).toNat < 16)
    (hint : ∀ bb : Fin 32, (tbl m 0 (ix1 bb)).toInt = (((tbl m 0 (ix1 bb)).toNat : ℕ) : ℤ)) :
    V3 m hO c main_v10 = Cert.ReferenceIdeal.Read.val_main_v35 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  obtain rfl : c = 0 := Subsingleton.elim _ _
  have e4 : V2 m hO 0 main_arg4 = m (((0 : Dev nD).tc : Thread nD τ).loc main_arg4) :=
    (V2_of_ne m hO 0 main_arg4 (by decide)).trans (V1_of m 0 main_arg4 (by decide))
  have e6 : V2 m hO 0 main_arg6 = m (((0 : Dev nD).tc : Thread nD τ).loc main_arg6) :=
    (V2_of_ne m hO 0 main_arg6 (by decide)).trans (V1_of m 0 main_arg6 (by decide))
  have hrow : ∀ bb : Fin 32, (m (((0 : Dev nD).tc : Thread nD τ).loc main_arg6) (ix1 bb)).toInt
      = (((⟨(tbl m 0 (ix1 bb)).toNat, hlt bb⟩ : Fin 16).val : ℕ) : ℤ) := fun bb => by
    rw [← tbl_eq m]; exact hint bb
  have e1 : V2 m hO 0 main_v1 = Cert.ReferenceIdeal.Read.val_main_v26 (F := Ideal)
      (m (((0 : Dev nD).tc : Thread nD τ).loc main_arg0)) (m (((0 : Dev nD).tc : Thread nD τ).loc main_arg1)) (m (((0 : Dev nD).tc : Thread nD τ).loc main_arg2))
      (m (((0 : Dev nD).tc : Thread nD τ).loc main_arg3)) (m (((0 : Dev nD).tc : Thread nD τ).loc main_arg5)) (m (((0 : Dev nD).tc : Thread nD τ).loc main_arg6)) :=
    (V2_arr m hO 0 5).trans ((Cert.KernelIdeal.HandValue.final_v1 m hO 0 (fun bb => ⟨(tbl m 0 (ix1 bb)).toNat, hlt bb⟩) (fun _ => rfl)).trans
      (Cert.RefValue.ref_blend _ _ _ _ _ _ (fun bb => ⟨(tbl m 0 (ix1 bb)).toNat, hlt bb⟩) hrow).symm)
  rw [V3_v10, e4, e6, e1, embed_eq]
  rfl

end Cert.KernelIdeal.HandResult

end
-- ==== Proof.lean ====
/-
  Per-subject linear dispatch with a masked-token blend, against its jnp reference, over the extended reals.

  Each of 32 samples carries a subject id; the kernel's grid point `bb` stages the sample's input rows, the weight
  slab and bias row of subject `ids[bb]` (selected by the block index maps, which read the prefetched id table) and
  the sample's mask column, and stores (x·W + b)·(1 − μ) + mtok·μ; the host then prepends the subject's embedding
  row. The reference gathers W[ids] and b[ids], contracts, blends and prepends the same row. At the ideal instance
  the two results are one function of the arguments as soon as every id lies in [0, 16): the block the kernel stages
  is then the slab the reference's gather reads (a non-negative id is not wrapped, an in-range one not clamped), the
  matrix unit's sum into a zero accumulator is the contraction's sum, and the blend is the same expression. The
  precondition says exactly that of the ids (beside finiteness, which no step of the argument uses); without it
  the kernel's block index would leave the weight table and the program would have no run.

  The frames: the pipeline runs at the launch memory's id table under the side condition the range gives; @main is
  one host operation, the region, and the eleven operations of the tail, which reads the id table again after the
  region; no stretch writes an argument. The reference is a host program: its frame is its run.
-/
import proofs.«405792_j67817533604482_1_alg».proof.Defs
import proofs.«405792_j67817533604482_1_alg».proof.Proof.Gen.Kernel
import proofs.«405792_j67817533604482_1_alg».proof.Proof.Gen.Kernel.Skeleton
import proofs.«405792_j67817533604482_1_alg».proof.Proof.Gen.Kernel.Launch
import proofs.«405792_j67817533604482_1_alg».proof.Proof.Gen.Kernel.Flash
import proofs.«405792_j67817533604482_1_alg».proof.Proof.Gen.KernelIdeal
import proofs.«405792_j67817533604482_1_alg».proof.Proof.Gen.KernelIdeal.Skeleton
import proofs.«405792_j67817533604482_1_alg».proof.Proof.Gen.KernelIdeal.Launch
import proofs.«405792_j67817533604482_1_alg».proof.Proof.Gen.KernelIdeal.Flash
import proofs.«405792_j67817533604482_1_alg».proof.Proof.Gen.ReferenceIdeal
import proofs.«405792_j67817533604482_1_alg».proof.Proof.Gen.ReferenceIdeal.Run
import proofs.«405792_j67817533604482_1_alg».proof.Proof.Gen.ReferenceIdeal.Read
import proofs.«405792_j67817533604482_1_alg».proof.Proof.Gen.Pre_finite_inputs
import proofs.«405792_j67817533604482_1_alg».proof.Proof.PreIds
import proofs.«405792_j67817533604482_1_alg».proof.Proof.Kernel.Frame
import proofs.«405792_j67817533604482_1_alg».proof.Proof.KernelIdeal.Result
import Idealize.ShloMosaic.Adequacy
import Idealize.ShloMosaic.Init

noncomputable section

namespace Cert.Proof

open Idealize.ShloMosaic Idealize.ShloMosaic.TcCoe Idealize.SL.Sem Idealize.ShloMosaic.ValueIdx

/-! ## The ids' range, read off the precondition, for each program -/

theorem ids_lt_bits (m : (ℓ : Loc Cert.Kernel.nD Cert.Kernel.τ Cert.Kernel.sig) → Buf (Elt Bits) ℓ) (h : Cert.Pre_Kernel m) :
    ∀ bb : Fin 32, (Cert.Kernel.Hand.tbl m 0 (ix1 bb)).toNat < 16 := fun bb => by
  rw [Cert.Kernel.Hand.tbl_eq]; exact Cert.PreIds.ids_toNat_lt _ _ _ _ _ _ _ (h 0) bb

theorem ids_lt_ideal (m : (ℓ : Loc Cert.KernelIdeal.nD Cert.KernelIdeal.τ Cert.KernelIdeal.sig) → Buf (Elt Ideal) ℓ) (h : Cert.Pre_KernelIdeal m) :
    ∀ bb : Fin 32, (Cert.KernelIdeal.Hand.tbl m 0 (ix1 bb)).toNat < 16 := fun bb => by
  rw [Cert.KernelIdeal.Hand.tbl_eq]; exact Cert.PreIds.ids_toNat_lt _ _ _ _ _ _ _ (h 0) bb

theorem ids_int_ideal (m : (ℓ : Loc Cert.KernelIdeal.nD Cert.KernelIdeal.τ Cert.KernelIdeal.sig) → Buf (Elt Ideal) ℓ) (h : Cert.Pre_KernelIdeal m) :
    ∀ bb : Fin 32, (Cert.KernelIdeal.Hand.tbl m 0 (ix1 bb)).toInt = (((Cert.KernelIdeal.Hand.tbl m 0 (ix1 bb)).toNat : ℕ) : ℤ) := fun bb => by
  rw [Cert.KernelIdeal.Hand.tbl_eq]; exact Cert.PreIds.ids_toInt_eq _ _ _ _ _ _ _ (h 0) bb

/-- The pipeline's side condition on the id table, from the precondition. -/
theorem ok_bits (m : (ℓ : Loc Cert.Kernel.nD Cert.Kernel.τ Cert.Kernel.sig) → Buf (Elt Bits) ℓ) (h : Cert.Pre_Kernel m) : Cert.Kernel.Hand.Ok m :=
  Cert.Kernel.Hand.ok_of_lt m fun x => by rw [eq_ix1 x]; exact ids_lt_bits m h (x 0)
theorem ok_ideal (m : (ℓ : Loc Cert.KernelIdeal.nD Cert.KernelIdeal.τ Cert.KernelIdeal.sig) → Buf (Elt Ideal) ℓ) (h : Cert.Pre_KernelIdeal m) : Cert.KernelIdeal.Hand.Ok m :=
  Cert.KernelIdeal.Hand.ok_of_lt m fun x => by rw [eq_ix1 x]; exact ids_lt_ideal m h (x 0)

/-! ## The claims -/

theorem frame_k : Cert.frame_Kernel := fun m ρ h => Cert.Kernel.Hand.frame m ρ (ok_bits m h)
theorem frame_ki : Cert.frame_KernelIdeal := fun m ρ h => Cert.KernelIdeal.Hand.frame m ρ (ok_ideal m h)
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is no ledger entry to restate. -/
theorem preserves : Cert.preserves_Kernel_KernelIdeal := trivial

/-- Both programs end with the reference's result stage of the (agreeing) arguments: the kernel's program by the
    run of its three stretches and the index-by-index reading of the region's result, the reference by its run. -/
theorem algebraic : Cert.algebraic_KernelIdeal_ReferenceIdeal := by
  intro m ρ m' ρ' hpre hagree
  have hO := ok_ideal m hpre
  refine ⟨fun c => Cert.ReferenceIdeal.Read.val_main_v35 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun r h c =>
      ⟨(h c _ (Cert.KernelIdeal.Hand.mem_uc Cert.KernelIdeal.main_v10 rfl)).trans
          (Cert.KernelIdeal.HandResult.result_eq m hO c (ids_lt_ideal m hpre) (ids_int_ideal m hpre)),
        Cert.KernelIdeal.Hand.kept m hO r h c⟩) (Cert.KernelIdeal.Hand.run_main m ρ hO)
  · refine (θ_run Cert.ReferenceIdeal.defs _ _).mono (fun r h c => ⟨?_, (h c).2⟩)
      (Cert.ReferenceIdeal.Value.run (F := Ideal) m' ρ')
    rw [(h c).1, Cert.ReferenceIdeal.Read.val_main_v35_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
